-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x14x768 : Shape := ⟨3, ![8192, 14, 768]⟩
abbrev S8192x14 : Shape := ⟨2, ![8192, 14]⟩
abbrev S14x14 : Shape := ⟨2, ![14, 14]⟩
abbrev S768x768 : Shape := ⟨2, ![768, 768]⟩
abbrev S768 : Shape := ⟨1, ![768]⟩
abbrev S_ : Shape := ⟨0, ![]⟩

class Facts : Prop where
  bcast_S_S8192x14x768 : S_.BroadcastsInDim S8192x14x768 (![] : Fin 0 → Fin S8192x14x768.rank)
  reducesTo_S8192x14x768_S_d0_1_2 : S8192x14x768.ReducesTo [0, 1, 2] S_
  h_S_ : 0 < S_.numel
  bcast_S_S8192x14 : S_.BroadcastsInDim S8192x14 (![] : Fin 0 → Fin S8192x14.rank)
  reducesTo_S8192x14_S_d0_1 : S8192x14.ReducesTo [0, 1] S_
  bcast_S_S14x14 : S_.BroadcastsInDim S14x14 (![] : Fin 0 → Fin S14x14.rank)
  reducesTo_S14x14_S_d0_1 : S14x14.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8192x14x768 .f32) (main_arg1 : FVec F S8192x14 .f32) (main_arg2 : FVec F S14x14 .f32) (main_arg3 : FVec F S768x768 .f32) (main_arg4 : FVec F S768 .f32) : IVec S_ 1 :=
  let main_v0 : FVec F S8192x14x768 .f32 := Host.absf main_arg0
  let main_cst : FVec F S_ .f32 := constant S_ .f32 0x7F800000#32
  let main_v1 : FVec F S8192x14x768 .f32 := broadcastInDim S8192x14x768 ![] bcast_S_S8192x14x768 main_cst
  let main_v2 : IVec S8192x14x768 1 := cmpf .olt main_v0 main_v1
  let main_c : IVec S_ 1 := constantI S_ 1 1#1
  let main_v3 : IVec S_ 1 := (fun x v => Host.reduce IntOp.andi x v reducesTo_S8192x14x768_S_d0_1_2 h_S_) main_v2 main_c
  let main_v4 : FVec F S8192x14 .f32 := Host.absf main_arg1
  let main_cst_0 : FVec F S_ .f32 := constant S_ .f32 0x7F800000#32
  let main_v5 : FVec F S8192x14 .f32 := broadcastInDim S8192x14 ![] bcast_S_S8192x14 main_cst_0
  let main_v6 : IVec S8192x14 1 := cmpf .olt main_v4 main_v5
  let main_c_1 : IVec S_ 1 := constantI S_ 1 1#1
  let main_v7 : IVec S_ 1 := (fun x v => Host.reduce IntOp.andi x v reducesTo_S8192x14_S_d0_1 h_S_) main_v6 main_c_1
  let main_v8 : IVec S_ 1 := andi main_v3 main_v7
  let main_v9 : FVec F S14x14 .f32 := Host.absf main_arg2
  let main_cst_2 : FVec F S_ .f32 := constant S_ .f32 0x7F800000#32
  let main_v10 : FVec F S14x14 .f32 := broadcastInDim S14x14 ![] bcast_S_S14x14 main_cst_2
  let main_v11 : IVec S14x14 1 := cmpf .olt main_v9 main_v10
  let main_c_3 : IVec S_ 1 := constantI S_ 1 1#1
  let main_v12 : IVec S_ 1 := (fun x v => Host.reduce IntOp.andi x v reducesTo_S14x14_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8192x14x768 : Shape := ⟨3, ![8192, 14, 768]⟩
abbrev S8192x14 : Shape := ⟨2, ![8192, 14]⟩
abbrev S14x14 : Shape := ⟨2, ![14, 14]⟩
abbrev S768x768 : Shape := ⟨2, ![768, 768]⟩
abbrev S768 : Shape := ⟨1, ![768]⟩
abbrev S_ : Shape := ⟨0, ![]⟩
abbrev S1x768 : Shape := ⟨2, ![1, 768]⟩
abbrev S8192x14x14 : Shape := ⟨3, ![8192, 14, 14]⟩
abbrev S128x14x768 : Shape := ⟨3, ![128, 14, 768]⟩
abbrev S128x14 : Shape := ⟨2, ![128, 14]⟩
abbrev S128x14x14 : Shape := ⟨3, ![128, 14, 14]⟩
abbrev S128x2x768 : Shape := ⟨3, ![128, 2, 768]⟩
abbrev S128x16x768 : Shape := ⟨3, ![128, 16, 768]⟩
abbrev S2048x768 : Shape := ⟨2, ![2048, 768]⟩
abbrev S2048 : Shape := ⟨1, ![2048]⟩
abbrev S2048x1 : Shape := ⟨2, ![2048, 1]⟩
abbrev S128x1x768 : Shape := ⟨3, ![128, 1, 768]⟩
abbrev S128x16 : Shape := ⟨2, ![128, 16]⟩
abbrev S128x16x1 : Shape := ⟨3, ![128, 16, 1]⟩
abbrev S128x16x16 : Shape := ⟨3, ![128, 16, 16]⟩
abbrev S128x2 : Shape := ⟨2, ![128, 2]⟩
abbrev S128x1x16 : Shape := ⟨3, ![128, 1, 16]⟩
abbrev S128x1 : Shape := ⟨2, ![128, 1]⟩
abbrev S128x1x1 : Shape := ⟨3, ![128, 1, 1]⟩
abbrev S2x14 : Shape := ⟨2, ![2, 14]⟩
abbrev S16x14 : Shape := ⟨2, ![16, 14]⟩
abbrev S16x2 : Shape := ⟨2, ![16, 2]⟩
abbrev S16x16 : Shape := ⟨2, ![16, 16]⟩
abbrev S1x16x16 : Shape := ⟨3, ![1, 16, 16]⟩

abbrev nBuf : Space → Nat
  | .hbm => 14
  | .vmem => 9
  | .smem => 0
  | _ => 0

abbrev bufTy : (tb : Table) → Fin (tcTables nBuf tb) → BufTy
  | .hbm, ⟨0, _⟩ => ⟨S8192x14x768, .f32⟩
  | .hbm, ⟨1, _⟩ => ⟨S8192x14, .f32⟩
  | .hbm, ⟨2, _⟩ => ⟨S14x14, .f32⟩
  | .hbm, ⟨3, _⟩ => ⟨S768x768, .f32⟩
  | .hbm, ⟨4, _⟩ => ⟨S768, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S14x14, .f32⟩
  | .hbm, ⟨10, _⟩ => ⟨S14x14, .f32⟩
  | .hbm, ⟨11, _⟩ => ⟨S1x768, .f32⟩
  | .hbm, ⟨12, _⟩ => ⟨S768x768, .bf16⟩
  | .hbm, ⟨13, _⟩ => ⟨S8192x14x14, .f32⟩
  | .local _ .vmem, ⟨0, _⟩ => ⟨S128x14x768, .f32⟩
  | .local _ .vmem, ⟨1, _⟩ => ⟨S128x14x768, .f32⟩
  | .local _ .vmem, ⟨2, _⟩ => ⟨S128x14, .f32⟩
  | .local _ .vmem, ⟨3, _⟩ => ⟨S128x14, .f32⟩
  | .local _ .vmem, ⟨4, _⟩ => ⟨S14x14, .f32⟩
  | .local _ .vmem, ⟨5, _⟩ => ⟨S768x768, .bf16⟩
  | .local _ .vmem, ⟨6, _⟩ => ⟨S1x768, .f32⟩
  | .local _ .vmem, ⟨7, _⟩ => ⟨S128x14x14, .f32⟩
  | .local _ .vmem, ⟨8, _⟩ => ⟨S128x14x14, .f32⟩
  | _, _ => ⟨S8192x14x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x14x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x14 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S14x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x14x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S14x14_S_d0_1 : S14x14.ReducesTo [0, 1] S_
  h_S_ : 0 < S_.numel
  bcast_S_S14x14 : S_.BroadcastsInDim S14x14 (![] : Fin 0 → Fin S14x14.rank)
  shapeCasts_S768_S1x768 : S768.ShapeCasts S1x768
  bitsLt_bf16_f32 : FTy.bits .bf16 < FTy.bits .f32
  inb_S128x14x768_S128x14x768_0_0_0 : ∀ a, (![0, 0, 0] : Fin 3 → Nat) a + S128x14x768.size a ≤ S128x14x768.size a
  h_S128x14x768 : 0 < S128x14x768.numel
  concatenates_S128x14x768_S128x2x768_S128x16x768_d1 : Shape.Concatenates [S128x14x768, S128x2x768] S128x16x768 1
  shapeCasts_S128x16x768_S2048x768 : S128x16x768.ShapeCasts S2048x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  reduces_S2048x768_S2048 : S2048x768.Reduces [1] S2048
  shapeCasts_S2048_S2048x1 : S2048.ShapeCasts S2048x1
  broadcasts_S2048x1_S2048x768 : S2048x1.Broadcasts S2048x768
  shapeCasts_S2048x768_S128x16x768 : S2048x768.ShapeCasts S128x16x768
  slices_S128x16x768_o0_0_0_S128x1x768 : S128x16x768.Slices ![0, 0, 0] S128x1x768
  broadcasts_S128x1x768_S128x16x768 : S128x1x768.Broadcasts S128x16x768
  reduces_S128x16x768_S128x16 : S128x16x768.Reduces [2] S128x16
  slices_S128x16x768_o0_1_0_S128x1x768 : S128x16x768.Slices ![0, 1, 0] S128x1x768
  slices_S128x16x768_o0_2_0_S128x1x768 : S128x16x768.Slices ![0, 2, 0] S128x1x768
  slices_S128x16x768_o0_3_0_S128x1x768 : S128x16x768.Slices ![0, 3, 0] S128x1x768
  slices_S128x16x768_o0_4_0_S128x1x768 : S128x16x768.Slices ![0, 4, 0] S128x1x768
  slices_S128x16x768_o0_5_0_S128x1x768 : S128x16x768.Slices ![0, 5, 0] S128x1x768
  slices_S128x16x768_o0_6_0_S128x1x768 : S128x16x768.Slices ![0, 6, 0] S128x1x768
  slices_S128x16x768_o0_7_0_S128x1x768 : S128x16x768.Slices ![0, 7, 0] S128x1x768
  slices_S128x16x768_o0_8_0_S128x1x768 : S128x16x768.Slices ![0, 8, 0] S128x1x768
  slices_S128x16x768_o0_9_0_S128x1x768 : S128x16x768.Slices ![0, 9, 0] S128x1x768
  slices_S128x16x768_o0_10_0_S128x1x768 : S128x16x768.Slices ![0, 10, 0] S128x1x768
  slices_S128x16x768_o0_11_0_S128x1x768 : S128x16x768.Slices ![0, 11, 0] S128x1x768
  slices_S128x16x768_o0_12_0_S128x1x768 : S128x16x768.Slices ![0, 12, 0] S128x1x768
  slices_S128x16x768_o0_13_0_S128x1x768 : S128x16x768.Slices ![0, 13, 0] S128x1x768
  slices_S128x16x768_o0_14_0_S128x1x768 : S128x16x768.Slices ![0, 14, 0] S128x1x768
  slices_S128x16x768_o0_15_0_S128x1x768 : S128x16x768.Slices ![0, 15, 0] S128x1x768
  shapeCasts_S128x16_S128x16x1 : S128x16.ShapeCasts S128x16x1
  concatenates_S128x16x1_S128x16x1_S128x16x1_S128x16x1_S128x16x1_S128x16x1_S128x16x1_S128x16x1_S128x16x1_S128x16x1_S128x16x1_S128x16x1_S128x16x1_S128x16x1_S128x16x1_S128x16x1_S128x16x16_d2 : Shape.Concatenates [S128x16x1, S128x16x1, S128x16x1, S128x16x1, S128x16x1, S128x16x1, S128x16x1, S128x16x1, S128x16x1, S128x16x1, S128x16x1, S128x16x1, S128x16x1, S128x16x1, S128x16x1, S128x16x1] S128x16x16 2
  inb_S128x14_S128x14_0_0 : ∀ a, (![0, 0] : Fin 2 → Nat) a + S128x14.size a ≤ S128x14.size a
  h_S128x14 : 0 < S128x14.numel
  concatenates_S128x14_S128x2_S128x16_d1 : Shape.Concatenates [S128x14, S128x2] S128x16 1
  shapeCasts_S128x16_S128x1x16 : S128x16.ShapeCasts S128x1x16
  broadcasts_S128x16x1_S128x16x16 : S128x16x1.Broadcasts S128x16x16
  broadcasts_S128x1x16_S128x16x16 : S128x1x16.Broadcasts S128x16x16
  reduces_S128x16x16_S128x16 : S128x16x16.Reduces [2] S128x16
  reduces_S128x16x1_S128x1 : S128x16x1.Reduces [1] S128x1
  shapeCasts_S128x1_S128x1x1 : S128x1.ShapeCasts S128x1x1
  broadcasts_S128x1x1_S128x16x16 : S128x1x1.Broadcasts S128x16x16
  inb_S14x14_S14x14_0_0 : ∀ a, (![0, 0] : Fin 2 → Nat) a + S14x14.size a ≤ S14x14.size a
  h_S14x14 : 0 < S14x14.numel
  shapeCasts_S14x14_S14x14 : S14x14.ShapeCasts S14x14
  concatenates_S14x14_S2x14_S16x14_d0 : Shape.Concatenates [S14x14, S2x14] S16x14 0
  concatenates_S16x14_S16x2_S16x16_d1 : Shape.Concatenates [S16x14, S16x2] S16x16 1
  shapeCasts_S16x16_S1x16x16 : S16x16.ShapeCasts S1x16x16
  broadcasts_S1x16x16_S128x16x16 : S1x16x16.Broadcasts S128x16x16
  iota_S128x16x16_d2_w32 : S128x16x16.Iotas .tc 32 [2]
  slices_S128x16x16_o0_0_0_S128x14x14 : S128x16x16.Slices ![0, 0, 0] S128x14x14
  inb_S128x14x14_S128x14x14_0_0_0 : ∀ a, (![0, 0, 0] : Fin 3 → Nat) a + S128x14x14.size a ≤ S128x14x14.size a
  h_S128x14x14 : 0 < S128x14x14.numel
  dot_S2048x768_S768x768_S2048x768_1_0_0_1_n_n_wf : DotDims.WF S2048x768 S768x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x14x768.size a ≤ S8192x14x768.size a
  hwx0_0 : ∀ i : grid0.Coords, EltTy.bits .f32 = 32 ∨ (Rect.block (s := S8192x14x768) S128x14x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x14.size a ≤ S8192x14.size a
  hwx0_1 : ∀ i : grid0.Coords, EltTy.bits .f32 = 32 ∨ (Rect.block (s := S8192x14) S128x14.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S14x14.size a ≤ S14x14.size a
  hwx0_2 : ∀ i : grid0.Coords, EltTy.bits .f32 = 32 ∨ (Rect.block (s := S14x14) S14x14.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x14x14.size a ≤ S8192x14x14.size a
  hwx0_5 : ∀ i : grid0.Coords, EltTy.bits .f32 = 32 ∨ (Rect.block (s := S8192x14x14) S128x14x14.size (cc0_transform_5 i) (hinb0_5 i)).WholeWords (EltTy.packing .f32)

variable [Facts₀]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf

abbrev win0_0 : Pipeline.Window sig grid0 :=
  Pipeline.Window.ofSpec (Memref.whole main_arg0) S128x14x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x14.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S14x14.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S128x14x14.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x14x768 : Shape := ⟨3, ![8192, 14, 768]⟩
abbrev S8192x14 : Shape := ⟨2, ![8192, 14]⟩
abbrev S14x14 : Shape := ⟨2, ![14, 14]⟩
abbrev S768x768 : Shape := ⟨2, ![768, 768]⟩
abbrev S768 : Shape := ⟨1, ![768]⟩
abbrev S1x1x768 : Shape := ⟨3, ![1, 1, 768]⟩
abbrev S_ : Shape := ⟨0, ![]⟩
abbrev S8192x14x1 : Shape := ⟨3, ![8192, 14, 1]⟩
abbrev S8192x14x14 : Shape := ⟨3, ![8192, 14, 14]⟩
abbrev S8192x1x14 : Shape := ⟨3, ![8192, 1, 14]⟩
abbrev S8192 : Shape := ⟨1, ![8192]⟩
abbrev S8192x1x1 : Shape := ⟨3, ![8192, 1, 1]⟩
abbrev S1x14x14 : Shape := ⟨3, ![1, 14, 14]⟩

abbrev nBuf : Space → Nat
  | .hbm => 57
  | .vmem => 0
  | .smem => 0
  | _ => 0

abbrev bufTy : (tb : Table) → Fin (tcTables nBuf tb) → BufTy
  | .hbm, ⟨0, _⟩ => ⟨S8192x14x768, .f32⟩
  | .hbm, ⟨1, _⟩ => ⟨S8192x14, .f32⟩
  | .hbm, ⟨2, _⟩ => ⟨S14x14, .f32⟩
  | .hbm, ⟨3, _⟩ => ⟨S768x768, .f32⟩
  | .hbm, ⟨4, _⟩ => ⟨S768, .f32⟩
  | .hbm, ⟨5, _⟩ => ⟨S8192x14x768, .f32⟩
  | .hbm, ⟨6, _⟩ => ⟨S1x1x768, .f32⟩
  | .hbm, ⟨7, _⟩ => ⟨S8192x14x768, .f32⟩
  | .hbm, ⟨8, _⟩ => ⟨S8192x14x768, .f32⟩
  | .hbm, ⟨9, _⟩ => ⟨S8192x14x768, .f32⟩
  | .hbm, ⟨10, _⟩ => ⟨S_, .f32⟩
  | .hbm, ⟨11, _⟩ => ⟨S8192x14, .f32⟩
  | .hbm, ⟨12, _⟩ => ⟨S8192x14x1, .f32⟩
  | .hbm, ⟨13, _⟩ => ⟨S8192x14x1, .f32⟩
  | .hbm, ⟨14, _⟩ => ⟨S_, .f32⟩
  | .hbm, ⟨15, _⟩ => ⟨S8192x14x1, .f32⟩
  | .hbm, ⟨16, _⟩ => ⟨S8192x14x1, .f32⟩
  | .hbm, ⟨17, _⟩ => ⟨S8192x14x768, .f32⟩
  | .hbm, ⟨18, _⟩ => ⟨S8192x14x768, .f32⟩
  | .hbm, ⟨19, _⟩ => ⟨S8192x14x14, .f32⟩
  | .hbm, ⟨20, _⟩ => ⟨S8192x14x1, .f32⟩
  | .hbm, ⟨21, _⟩ => ⟨S8192x1x14, .f32⟩
  | .hbm, ⟨22, _⟩ => ⟨S8192x14x14, .f32⟩
  | .hbm, ⟨23, _⟩ => ⟨S8192x14x14, .f32⟩
  | .hbm, ⟨24, _⟩ => ⟨S8192x14x14, .f32⟩
  | .hbm, ⟨25, _⟩ => ⟨S_, .f32⟩
  | .hbm, ⟨26, _⟩ => ⟨S8192, .f32⟩
  | .hbm, ⟨27, _⟩ => ⟨S8192x1x1, .f32⟩
  | .hbm, ⟨28, _⟩ => ⟨S_, .f32⟩
  | .hbm, ⟨29, _⟩ => ⟨S8192x1x1, .f32⟩
  | .hbm, ⟨30, _⟩ => ⟨S8192x1x1, .f32⟩
  | .hbm, ⟨31, _⟩ => ⟨S8192x14x14, .f32⟩
  | .hbm, ⟨32, _⟩ => ⟨S8192x14x14, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S14x14, .f32⟩
  | .hbm, ⟨38, _⟩ => ⟨S14x14, .f32⟩
  | .hbm, ⟨39, _⟩ => ⟨S8192x14x14, .f32⟩
  | .hbm, ⟨40, _⟩ => ⟨S1x14x14, .f32⟩
  | .hbm, ⟨41, _⟩ => ⟨S8192x14x14, .f32⟩
  | .hbm, ⟨42, _⟩ => ⟨S8192x14x14, .f32⟩
  | .hbm, ⟨43, _⟩ => ⟨S_, .f32⟩
  | .hbm, ⟨44, _⟩ => ⟨S8192x14, .f32⟩
  | .hbm, ⟨45, _⟩ => ⟨S_, .f32⟩
  | .hbm, ⟨46, _⟩ => ⟨S8192x14, .f32⟩
  | .hbm, ⟨47, _⟩ => ⟨S8192x14, .f32⟩
  | .hbm, ⟨48, _⟩ => ⟨S8192x14x1, .f32⟩
  | .hbm, ⟨49, _⟩ => ⟨S8192x14x14, .f32⟩
  | .hbm, ⟨50, _⟩ => ⟨S8192x14x14, .f32⟩
  | .hbm, ⟨51, _⟩ => ⟨S8192x14x14, .f32⟩
  | .hbm, ⟨52, _⟩ => ⟨S_, .f32⟩
  | .hbm, ⟨53, _⟩ => ⟨S8192x14, .f32⟩
  | .hbm, ⟨54, _⟩ => ⟨S8192x14x1, .f32⟩
  | .hbm, ⟨55, _⟩ => ⟨S8192x14x14, .f32⟩
  | .hbm, ⟨56, _⟩ => ⟨S8192x14x14, .f32⟩
  | _, _ => ⟨S8192x14x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S8192x14x768_0_1_2 : S1x1x768.BroadcastsInDim S8192x14x768 (![0, 1, 2] : Fin 3 → Fin S8192x14x768.rank)
  reducesTo_S8192x14x768_S8192x14_d2 : S8192x14x768.ReducesTo [2] S8192x14
  h_S_ : 0 < S_.numel
  bcast_S8192x14_S8192x14x1_0_1 : S8192x14.BroadcastsInDim S8192x14x1 (![0, 1] : Fin 2 → Fin S8192x14x1.rank)
  bcast_S_S8192x14x1 : S_.BroadcastsInDim S8192x14x1 (![] : Fin 0 → Fin S8192x14x1.rank)
  bcast_S8192x14x1_S8192x14x768_0_1_2 : S8192x14x1.BroadcastsInDim S8192x14x768 (![0, 1, 2] : Fin 3 → Fin S8192x14x768.rank)
  bcast_S8192x14_S8192x1x14_0_2 : S8192x14.BroadcastsInDim S8192x1x14 (![0, 2] : Fin 2 → Fin S8192x1x14.rank)
  bcast_S8192x14x1_S8192x14x14_0_1_2 : S8192x14x1.BroadcastsInDim S8192x14x14 (![0, 1, 2] : Fin 3 → Fin S8192x14x14.rank)
  bcast_S8192x1x14_S8192x14x14_0_1_2 : S8192x1x14.BroadcastsInDim S8192x14x14 (![0, 1, 2] : Fin 3 → Fin S8192x14x14.rank)
  reducesTo_S8192x14x14_S8192_d1_2 : S8192x14x14.ReducesTo [1, 2] S8192
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S8192x1x1_S8192x14x14_0_1_2 : S8192x1x1.BroadcastsInDim S8192x14x14 (![0, 1, 2] : Fin 3 → Fin S8192x14x14.rank)
  reducesTo_S14x14_S_d0_1 : S14x14.ReducesTo [0, 1] S_
  bcast_S_S14x14 : S_.BroadcastsInDim S14x14 (![] : Fin 0 → Fin S14x14.rank)
  bcast_S14x14_S1x14x14_1_2 : S14x14.BroadcastsInDim S1x14x14 (![1, 2] : Fin 2 → Fin S1x14x14.rank)
  bcast_S1x14x14_S8192x14x14_0_1_2 : S1x14x14.BroadcastsInDim S8192x14x14 (![0, 1, 2] : Fin 3 → Fin S8192x14x14.rank)
  reducesTo_S8192x14x14_S8192x14_d2 : S8192x14x14.ReducesTo [2] S8192x14
  bcast_S_S8192x14 : S_.BroadcastsInDim S8192x14 (![] : Fin 0 → Fin S8192x14.rank)
  dot_S8192x14x768_S768x768_S8192x14x768_2_0_01_1_n_n_wf : DotDims.WF S8192x14x768 S768x768 S8192x14x768 [2] [0] [0, 1] [1] [] []
  dot_S8192x14x768_S8192x14x768_S8192x14x14_2_2_1_1_0_0_wf : DotDims.WF S8192x14x768 S8192x14x768 S8192x14x14 [2] [2] [1] [1] [0] [0]

variable [Facts₀]

def dot_S8192x14x768_S768x768_S8192x14x768_2_0_01_1_n_n : DotDims S8192x14x768 S768x768 S8192x14x768 where
  lhsContracting := [2]
  rhsContracting := [0]
  lhsNonContracting := [0, 1]
  rhsNonContracting := [1]
  lhsBatch := []
  rhsBatch := []
  wf := dot_S8192x14x768_S768x768_S8192x14x768_2_0_01_1_n_n_wf
def dot_S8192x14x768_S8192x14x768_S8192x14x14_2_2_1_1_0_0 : DotDims S8192x14x768 S8192x14x768 S8192x14x14 where
  lhsContracting := [2]
  rhsContracting := [2]
  lhsNonContracting := [1]
  rhsNonContracting := [1]
  lhsBatch := [0]
  rhsBatch := [0]
  wf := dot_S8192x14x768_S8192x14x768_S8192x14x14_2_2_1_1_0_0_wf

class Facts : Prop extends Facts₀ where

variable [Facts]
-- ==== Proof.Spec.lean ====
/-
  The value both programs compute, for ONE batch entry, as plain functions of that entry's rows.

  Inputs of a batch entry: its 14 region rows `x n d` (d < 768), the projection `W d e`, the bias `bias e`, its 14 areas `a n`
  and the 14 × 14 co-occurrence weights `cw n m` (already divided by their total). The result is a 14 × 14 matrix:

    feat n e = (Σ_d x n d · W d e) + bias e                      the projected row
    nf n e   = feat n e / max (√(Σ_e feat n e²)) ε                the row scaled to unit length (ε guards the zero row)
    sim n m  = Σ_e nf n e · nf m e                                cosine similarity of rows n and m
    aw n m   = a n · a m / (max_{n,m} a n · a m + ε₈)             the area products over their largest
    adj n m  = sim n m · aw n m · cw n m
    soft n m = exp (adj n m − max_m adj n m) / Σ_m exp (adj n m − max_m adj n m)      the softmax of row n

  `soft` is this, spelt as the reference computes it. `softK` is the same matrix spelt as the kernel computes it: on rows and
  columns padded from 14 to 16 (zero rows of x, zero areas, zero weights), the row scaled by the reciprocal square root of
  max (Σ feat², ε²), the two padded key columns filled with −∞ before the row maximum and the exponential. That the two are one
  matrix is the algebra of this certificate (Algebra.lean).
-/
import Idealize.ShloMosaic.PureOps.Ideal
import Idealize.ShloMosaic.Lib.ValueIdx

noncomputable section

namespace Cert.Spec

open Idealize.ShloMosaic

/-- The reference's guard ε under the norm: the f32 word nearest 1e-12, the dyadic 2305843 / 2^61. -/
def epsN : EReal := Ideal.ofBits .f32 0x2B8CBCCC#32
/-- The kernel's guard under the SQUARED norm: ε², exactly (5316911940649 = 2305843², the denominator 2^122). -/
def epsSq : EReal := ((5316911940649 / 5316911983139663491615228241121378304 : ℝ) : EReal)
/-- The guard ε₈ added to a maximum or a total before dividing by it: the f32 word nearest 1e-8, the same on both sides. -/
def eps8 : EReal := Ideal.ofBits .f32 0x322BCC77#32

/-- Row or column number below 14, among 16. -/
abbrev up (n : Fin 14) : Fin 16 := ⟨n.val, by have := n.isLt; omega⟩

/-- A family over 14 rows padded to 16 by the value `z`. -/
def pad16 {α : Type} (f : Fin 14 → α) (z : α) (n : Fin 16) : α := if h : n.val < 14 then f ⟨n.val, h⟩ else z

section OneEntry

variable (x : Fin 14 → Fin 768 → EReal) (W : Fin 768 → Fin 768 → EReal) (bias : Fin 768 → EReal)
  (a : Fin 14 → EReal) (cw : Fin 14 → Fin 14 → EReal)

/-! ### As the reference computes it -/

def feat (n : Fin 14) (e : Fin 768) : EReal := (∑ d : Fin 768, x n d * W d e) + bias e
def ssq (n : Fin 14) : EReal := ∑ e : Fin 768, feat x W bias n e * feat x W bias n e
def nf (n : Fin 14) (e : Fin 768) : EReal := Ideal.div (feat x W bias n e) (max (Ideal.sqrt (ssq x W bias n)) epsN)
def sim (n m : Fin 14) : EReal := ∑ e : Fin 768, nf x W bias n e * nf x W bias m e
def amax : EReal := (Finset.univ : Finset (Fin 14)).fold max ⊥ fun n => (Finset.univ : Finset (Fin 14)).fold max ⊥ fun m => a n * a m
def aw (n m : Fin 14) : EReal := Ideal.div (a n * a m) (amax a + eps8)
def adj (n m : Fin 14) : EReal := sim x W bias n m * aw a n m * cw n m
def rowmax (n : Fin 14) : EReal := (Finset.univ : Finset (Fin 14)).fold max ⊥ fun m => adj x W bias a cw n m
def soft (n m : Fin 14) : EReal :=
  Ideal.div (Ideal.exp (adj x W bias a cw n m - rowmax x W bias a cw n))
    (∑ k : Fin 14, Ideal.exp (adj x W bias a cw n k - rowmax x W bias a cw n))

/-! ### As the kernel computes it, on 16 rows and 16 key columns -/

def x16 (n : Fin 16) (d : Fin 768) : EReal := pad16 (fun n => x n d) 0 n
def feat16 (n : Fin 16) (e : Fin 768) : EReal := (∑ d : Fin 768, x16 x n d * W d e) + bias e
def ssq16 (n : Fin 16) : EReal := ∑ e : Fin 768, feat16 x W bias n e * feat16 x W bias n e
def nf16 (n : Fin 16) (e : Fin 768) : EReal := feat16 x W bias n e * Ideal.rsqrt (max (ssq16 x W bias n) epsSq)
def sim16 (n m : Fin 16) : EReal := ∑ e : Fin 768, nf16 x W bias n e * nf16 x W bias m e
def a16 (n : Fin 16) : EReal := pad16 a 0 n
def amax16 : EReal := (Finset.univ : Finset (Fin 16)).fold max ⊥ fun n => (Finset.univ : Finset (Fin 16)).fold max ⊥ fun m => a16 a n * a16 a m
def aw16 (n m : Fin 16) : EReal := Ideal.div (a16 a n * a16 a m) (amax16 a + eps8)
def cw16 (n m : Fin 16) : EReal := pad16 (fun n => pad16 (cw n) 0 m) 0 n

/-! The part after the similarities, for ANY 16 × 16 matrix `s` of similarities (the kernel's is `sim16`). -/
variable (s : Fin 16 → Fin 16 → EReal)
def adjT (n m : Fin 16) : EReal := s n m * aw16 a n m * cw16 cw n m
/-- The two padded key columns are filled with −∞. -/
def mskT (n m : Fin 16) : EReal := if m.val < 14 then adjT a cw s n m else ⊥
def rowmaxT (n : Fin 16) : EReal := (Finset.univ : Finset (Fin 16)).fold max ⊥ fun m => mskT a cw s n m
/-- A masked entry less its row's maximum: what the exponential is taken of. -/
def zT (n m : Fin 16) : EReal := mskT a cw s n m - rowmaxT a cw s n
/-- The softmax over the 16 key columns, kept on the 14 × 14 corner. -/
def softT (n m : Fin 14) : EReal :=
  Ideal.div (Ideal.exp (zT a cw s (up n) (up m))) (∑ k : Fin 16, Ideal.exp (zT a cw s (up n) k))

def softK (n m : Fin 14) : EReal := softT a cw (sim16 x W bias) n m

end OneEntry

/-! ### The whole arrays -/

open Idealize.ShloMosaic.ValueIdx

/-- The co-occurrence counts over their total plus ε₈. -/
def cwOf (co : (⟨2, ![14, 14]⟩ : Shape).Idx → EReal) (n m : Fin 14) : EReal :=
  Ideal.div (co (ix2 n m)) ((∑ i : (⟨2, ![14, 14]⟩ : Shape).Idx, co i) + eps8)

/-- The result array as ONE function of the five argument arrays: batch entry b's matrix `soft`, of its own rows and areas. -/
def G (X : (⟨3, ![8192, 14, 768]⟩ : Shape).Idx → EReal) (A : (⟨2, ![8192, 14]⟩ : Shape).Idx → EReal)
    (CO : (⟨2, ![14, 14]⟩ : Shape).Idx → EReal) (Wm : (⟨2, ![768, 768]⟩ : Shape).Idx → EReal)
    (B : (⟨1, ![768]⟩ : Shape).Idx → EReal) : (⟨3, ![8192, 14, 14]⟩ : Shape).Idx → EReal := fun i =>
  soft (fun n d => X (ix3 (i 0) n d)) (fun d e => Wm (ix2 d e)) (fun e => B (ix1 e)) (fun n => A (ix2 (i 0) n)) (cwOf CO) (i 1) (i 2)

end Cert.Spec

end
-- ==== Proof.Algebra.lean ====
/-
  The algebra of this certificate: the matrix the kernel computes, on rows and key columns padded from 14 to 16, is the matrix
  the reference computes, entry by entry and at every extended-real input (no finiteness is assumed anywhere).

  * A padded family read below 14 is the family itself, so the projected rows and their squared norms agree on the 14 real rows.
  * A square is never negative on the extended reals, so a squared norm is never negative.
  * THE LAW: for 0 ≤ s, scaling by the reciprocal square root of max (s, ε²) is dividing by max (√s, ε): the square root is
    monotone and √(ε²) = ε, and at s = ⊤ both sides are a product with 0.
  * The largest area product is the same over 14 or over 16 indices: a padded product is 0, and the largest is at least a square.
  * The two padded key columns hold ⊥, the value a fold of max starts from, so the row maxima agree; the exponential of
    ⊥ less anything is 0, so the two extra terms of the kernel's sum of exponentials vanish.
-/
import proofs.«424087_j15942918603390_3_alg».proof.Proof.Spec
import Idealize.ShloMosaic.PureOps.Ideal
import Idealize.ShloMosaic.PureOps.Ideal.Laws
import Mathlib.Data.Finset.Fold
import Mathlib.Data.EReal.Inv
import Mathlib.Analysis.Real.Sqrt
import Mathlib.Algebra.BigOperators.Fin

noncomputable section

namespace Cert.Spec

open Idealize.ShloMosaic

/-! ### The guards as rationals -/

/-- The guard ε under the norm, as a real: 2305843 / 2^61. -/
def epsR : ℝ := 2305843 / 2305843009213693952

theorem epsR_pos : 0 < epsR := by unfold epsR; norm_num

/-- The reference's guard denotes ε. -/
theorem epsN_eq : epsN = ((epsR : ℝ) : EReal) := by
  simp [epsN, epsR, Ideal.ofBits, Ideal.ieee, -EReal.coe_mul]; norm_num

/-- The kernel's guard is ε². -/
theorem epsSq_eq : epsSq = ((epsR ^ 2 : ℝ) : EReal) := by
  unfold epsSq epsR; congr 1; norm_num

/-! ### Padding -/

variable {α : Type}

/-- A padded family read below 14 is the family. -/
theorem pad16_up (f : Fin 14 → α) (z : α) (n : Fin 14) : pad16 f z (up n) = f n := by
  unfold pad16
  rw [dif_pos (show (up n).val < 14 from n.isLt)]

/-- A padded family read at 14 or 15 is the padding value. -/
theorem pad16_of_le (f : Fin 14 → α) (z : α) (k : Fin 16) (hk : 14 ≤ k.val) : pad16 f z k = z := by
  unfold pad16
  rw [dif_neg (by omega)]

/-- An index of the 16 is one of the 14 or a padded one. -/
theorem eq_up_or_le (k : Fin 16) : (∃ m : Fin 14, k = up m) ∨ 14 ≤ k.val := by
  by_cases hk : k.val < 14
  · exact Or.inl ⟨⟨k.val, hk⟩, Fin.ext rfl⟩
  · exact Or.inr (by omega)

/-! ### Squares and sums of squares -/

/-- A square is never negative on the extended reals: ⊥ · ⊥ = ⊤ · ⊤ = ⊤. -/
theorem mul_self_nonneg (y : EReal) : 0 ≤ y * y := by
  induction y using EReal.rec with
  | bot => rw [EReal.bot_mul_bot]; exact le_top
  | top => rw [EReal.top_mul_top]; exact le_top
  | coe r => rw [← EReal.coe_mul]; exact EReal.coe_nonneg.mpr (_root_.mul_self_nonneg r)

/-! ### The law: the reciprocal square root of the guarded square against the guarded square root -/

/-- On the reals, for ε ≥ 0: √(max r ε²) = max (√r) ε. -/
theorem real_sqrt_max_sq (r : ℝ) {ε : ℝ} (hε : 0 ≤ ε) : Real.sqrt (max r (ε ^ 2)) = max (Real.sqrt r) ε := by
  have hmono : Monotone Real.sqrt := fun _ _ h => Real.sqrt_le_sqrt h
  rw [hmono.map_max, Real.sqrt_sq hε]

/-- For 0 ≤ s: f · rsqrt (max s ε²) = f / max (√s) ε. -/
theorem mul_rsqrt_max_eq_div_max_sqrt (f s : EReal) (hs : 0 ≤ s) :
    f * Ideal.rsqrt (max s epsSq) = Ideal.div f (max (Ideal.sqrt s) epsN) := by
  induction s using EReal.rec with
  | bot => exact absurd hs (by simp)
  | top =>
    rw [max_eq_left le_top, Ideal.rsqrt_top, Ideal.sqrt_top, max_eq_left le_top, Ideal.div,
      if_neg EReal.top_ne_zero, EReal.inv_top]
  | coe r =>
    have hr : 0 ≤ r := EReal.coe_nonneg.mp hs
    have hpos : 0 < max r (epsR ^ 2) := lt_max_of_lt_right (pow_pos epsR_pos 2)
    have hne : max (Real.sqrt r) epsR ≠ 0 := (lt_max_of_lt_right epsR_pos).ne'
    rw [epsN_eq, epsSq_eq, ← EReal.coe_strictMono.monotone.map_max, Ideal.rsqrt_coe,
      if_neg (not_lt.mpr hpos.le), if_neg hpos.ne', Ideal.sqrt_coe, if_neg (not_lt.mpr hr),
      ← EReal.coe_strictMono.monotone.map_max, Ideal.div_coe hne, real_sqrt_max_sq r epsR_pos.le, one_div]

/-! ### Folds of max over 14 and over 16 indices -/

/-- An entry is at most the fold of max over its row and then over the rows. -/
theorem le_fold_fold {k : ℕ} (f : Fin k → Fin k → EReal) (n m : Fin k) :
    f n m ≤ (Finset.univ : Finset (Fin k)).fold max ⊥ fun n => (Finset.univ : Finset (Fin k)).fold max ⊥ fun m => f n m :=
  (Finset.le_fold_max _).mpr (Or.inr ⟨n, Finset.mem_univ _, (Finset.le_fold_max _).mpr (Or.inr ⟨m, Finset.mem_univ _, le_rfl⟩)⟩)

/-- The fold of max over a row and then over the rows is at most any bound of the entries. -/
theorem fold_fold_le {k : ℕ} (f : Fin k → Fin k → EReal) (c : EReal) (h : ∀ n m, f n m ≤ c) :
    ((Finset.univ : Finset (Fin k)).fold max ⊥ fun n => (Finset.univ : Finset (Fin k)).fold max ⊥ fun m => f n m) ≤ c :=
  (Finset.fold_max_le _).mpr ⟨bot_le, fun n _ => (Finset.fold_max_le _).mpr ⟨bot_le, fun m _ => h n m⟩⟩

/-- A fold of max from ⊥ over 16 indices whose two padded entries are ⊥ is the fold over the 14. -/
theorem fold_max_pad (g : Fin 16 → EReal) (h : Fin 14 → EReal) (hup : ∀ m, g (up m) = h m)
    (hpad : ∀ k : Fin 16, 14 ≤ k.val → g k = ⊥) :
    (Finset.univ : Finset (Fin 16)).fold max ⊥ g = (Finset.univ : Finset (Fin 14)).fold max ⊥ h := by
  apply le_antisymm
  · refine (Finset.fold_max_le _).mpr ⟨bot_le, fun k _ => ?_⟩
    rcases eq_up_or_le k with ⟨m, rfl⟩ | hk
    · rw [hup]; exact (Finset.le_fold_max _).mpr (Or.inr ⟨m, Finset.mem_univ _, le_rfl⟩)
    · rw [hpad k hk]; exact bot_le
  · refine (Finset.fold_max_le _).mpr ⟨bot_le, fun m _ => ?_⟩
    rw [← hup]; exact (Finset.le_fold_max _).mpr (Or.inr ⟨up m, Finset.mem_univ _, le_rfl⟩)

/-- A sum over 16 indices whose two padded terms are 0 is the sum over the 14. -/
theorem sum_pad (g : Fin 16 → EReal) (h : Fin 14 → EReal) (hup : ∀ m, g (up m) = h m)
    (hpad : ∀ k : Fin 16, 14 ≤ k.val → g k = 0) : ∑ k : Fin 16, g k = ∑ m : Fin 14, h m := by
  rw [Fin.sum_univ_castSucc, Fin.sum_univ_castSucc, hpad (Fin.last 15) (by simp),
    hpad (Fin.castSucc (Fin.last 14)) (by simp), add_zero, add_zero]
  exact Finset.sum_congr rfl fun m _ => hup m

section OneEntry

variable (x : Fin 14 → Fin 768 → EReal) (W : Fin 768 → Fin 768 → EReal) (bias : Fin 768 → EReal)
  (a : Fin 14 → EReal) (cw : Fin 14 → Fin 14 → EReal)

/-! ### The projected rows, their squared norms and the similarities -/

theorem feat16_up (n : Fin 14) (e : Fin 768) : feat16 x W bias (up n) e = feat x W bias n e := by
  unfold feat16 feat x16
  simp only [pad16_up]

theorem ssq16_up (n : Fin 14) : ssq16 x W bias (up n) = ssq x W bias n := by
  unfold ssq16 ssq
  simp only [feat16_up]

theorem ssq_nonneg (n : Fin 14) : 0 ≤ ssq x W bias n :=
  Finset.sum_nonneg fun e _ => mul_self_nonneg _

/-- The kernel's scaled row is the reference's, by the law. -/
theorem nf16_up (n : Fin 14) (e : Fin 768) : nf16 x W bias (up n) e = nf x W bias n e := by
  unfold nf16 nf
  rw [feat16_up, ssq16_up, mul_rsqrt_max_eq_div_max_sqrt _ _ (ssq_nonneg x W bias n)]

theorem sim16_up (n m : Fin 14) : sim16 x W bias (up n) (up m) = sim x W bias n m := by
  unfold sim16 sim
  simp only [nf16_up]

/-! ### The area weights -/

theorem a16_up (n : Fin 14) : a16 a (up n) = a n := pad16_up a 0 n

theorem a16_of_le (k : Fin 16) (hk : 14 ≤ k.val) : a16 a k = 0 := pad16_of_le a 0 k hk

/-- The largest area product is at least a square, so it is not negative. -/
theorem amax_nonneg : 0 ≤ amax a :=
  (mul_self_nonneg (a 0)).trans (le_fold_fold (fun n m => a n * a m) 0 0)

/-- The largest area product over the 16 padded areas is the largest over the 14: a padded product is 0. -/
theorem amax16_eq : amax16 a = amax a := by
  apply le_antisymm
  · refine fold_fold_le (fun n m => a16 a n * a16 a m) _ fun n m => ?_
    rcases eq_up_or_le n with ⟨n', rfl⟩ | hn
    · rcases eq_up_or_le m with ⟨m', rfl⟩ | hm
      · rw [a16_up, a16_up]; exact le_fold_fold (fun n m => a n * a m) n' m'
      · rw [a16_of_le a m hm, mul_zero]; exact amax_nonneg a
    · rw [a16_of_le a n hn, zero_mul]; exact amax_nonneg a
  · refine fold_fold_le (fun n m => a n * a m) _ fun n m => ?_
    have h := le_fold_fold (fun n m => a16 a n * a16 a m) (up n) (up m)
    simp only [a16_up] at h
    exact h

theorem aw16_up (n m : Fin 14) : aw16 a (up n) (up m) = aw a n m := by
  unfold aw16 aw
  rw [a16_up, a16_up, amax16_eq]

theorem cw16_up (n m : Fin 14) : cw16 cw (up n) (up m) = cw n m := by
  unfold cw16
  rw [pad16_up, pad16_up]

/-! ### The masked matrix, its row maxima and the softmax -/

theorem adjT_up (n m : Fin 14) : adjT a cw (sim16 x W bias) (up n) (up m) = adj x W bias a cw n m := by
  unfold adjT adj
  rw [sim16_up, aw16_up, cw16_up]

theorem mskT_up (n m : Fin 14) : mskT a cw (sim16 x W bias) (up n) (up m) = adj x W bias a cw n m := by
  unfold mskT
  rw [if_pos (show (up m).val < 14 from m.isLt), adjT_up]

theorem mskT_of_le (s : Fin 16 → Fin 16 → EReal) (n k : Fin 16) (hk : 14 ≤ k.val) : mskT a cw s n k = ⊥ := by
  unfold mskT
  rw [if_neg (by omega)]

theorem rowmaxT_up (n : Fin 14) : rowmaxT a cw (sim16 x W bias) (up n) = rowmax x W bias a cw n := by
  unfold rowmaxT rowmax
  exact fold_max_pad _ _ (fun m => mskT_up x W bias a cw n m) fun k hk => mskT_of_le a cw _ _ k hk

theorem zT_up (n m : Fin 14) :
    zT a cw (sim16 x W bias) (up n) (up m) = adj x W bias a cw n m - rowmax x W bias a cw n := by
  unfold zT
  rw [mskT_up, rowmaxT_up]

/-- A padded key column holds ⊥ less the row maximum, which is ⊥. -/
theorem zT_of_le (s : Fin 16 → Fin 16 → EReal) (n k : Fin 16) (hk : 14 ≤ k.val) : zT a cw s n k = ⊥ := by
  unfold zT
  rw [mskT_of_le a cw s n k hk, sub_eq_add_neg, EReal.bot_add]

/-- The kernel's matrix is the reference's. -/
theorem softK_eq_soft (n m : Fin 14) : softK x W bias a cw n m = soft x W bias a cw n m := by
  unfold softK softT soft
  rw [zT_up, sum_pad (fun k => Ideal.exp (zT a cw (sim16 x W bias) (up n) k))
    (fun k => Ideal.exp (adj x W bias a cw n k - rowmax x W bias a cw n))
    (fun k => by rw [zT_up]) fun k hk => by rw [zT_of_le a cw _ _ k hk, Ideal.exp_bot]]

end OneEntry

end Cert.Spec

end
-- ==== Proof.LibRowOps.lean ====
/-
  Layout operations and a lane sum read at an index given by coordinates: the column forms that sit beside the
  row forms of the library's layout lemmas.

  * a column [a, 1] broadcast along its unit axis to [a, b] reads, at (p, c), the column's entry p;
  * a vector [a] cast to a column [a, 1] reads, at (i, 0), the vector's entry i;
  * a sum over the second axis of an [a, b] array, read at p, is the sum over n of the entries (p, n);
  * a block of extents [1, m, n] loaded from an [k, m, n] array at offset (i, 0, 0) reads, at (0, r, c), the array's
    entry (i, r, c); likewise a [1, n] row of a [k, n] array and one entry of a vector.
-/
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

/-- A column broadcast along its unit axis: entry (p, c) of the result is entry p of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: entry (i, 0) of the column is entry i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum over the second axis of an [a, b] array of extended reals, read at p: the sum over n of entry (p, n). -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

/-- A load through a unit-stride rectangle reads, at j, the array at the index k whose coordinates are the
    rectangle's offsets plus j's. -/
theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.KHead.lean ====
/-
  The head of the kernel's body read at an index: the projected and normalised rows.

  A block holds 128 batch entries of 14 rows. The body pads each entry to 16 rows (two zero rows), lays the 128 × 16 rows out
  as one 2048 × 768 matrix, multiplies it by W, adds the bias, and scales row r by the reciprocal square root of
  max (Σ_e row², ε²). Row r = 16 p + n of that matrix is row n of entry p, so at (p, n, e) the result is `nf16` of entry p's rows.
-/
import proofs.«424087_j15942918603390_3_alg».proof.Proof.Gen.KernelIdeal.Skeleton
import proofs.«424087_j15942918603390_3_alg».proof.Proof.Spec
import proofs.«424087_j15942918603390_3_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.Hand

open Cert.KernelIdeal Cert.KernelIdeal.Gen Cert.Spec Idealize.ShloMosaic Idealize.ShloMosaic.ValueIdx

/-! ## The product with W at an index -/

theorem lhs_dot_0 (i : S2048x768.Idx) (q : dot_S2048x768_S768x768_S2048x768_1_0_0_1_n_n.contr.Idx) :
    (dot_S2048x768_S768x768_S2048x768_1_0_0_1_n_n.lhsIdx i q 0).val = (i 0).val := by
  unfold DotDims.lhsIdx
  rw [dif_neg (show ¬(0 : Fin S2048x768.rank) ∈ dot_S2048x768_S768x768_S2048x768_1_0_0_1_n_n.lhsBatch by decide), dif_pos (show (0 : Fin S2048x768.rank) ∈ dot_S2048x768_S768x768_S2048x768_1_0_0_1_n_n.lhsNonContracting by decide)]
  rfl
theorem lhs_dot_1 (i : S2048x768.Idx) (q : dot_S2048x768_S768x768_S2048x768_1_0_0_1_n_n.contr.Idx) :
    (dot_S2048x768_S768x768_S2048x768_1_0_0_1_n_n.lhsIdx i q 1).val = (q ⟨0, by decide⟩).val :=
  dot_S2048x768_S768x768_S2048x768_1_0_0_1_n_n.lhsIdx_val_of_single rfl i q
theorem rhs_dot_0 (i : S2048x768.Idx) (q : dot_S2048x768_S768x768_S2048x768_1_0_0_1_n_n.contr.Idx) :
    (dot_S2048x768_S768x768_S2048x768_1_0_0_1_n_n.rhsIdx i q 0).val = (q ⟨0, by decide⟩).val :=
  dot_S2048x768_S768x768_S2048x768_1_0_0_1_n_n.rhsIdx_val_of_single rfl i q
theorem rhs_dot_1 (i : S2048x768.Idx) (q : dot_S2048x768_S768x768_S2048x768_1_0_0_1_n_n.contr.Idx) :
    (dot_S2048x768_S768x768_S2048x768_1_0_0_1_n_n.rhsIdx i q 1).val = (i 1).val := by
  unfold DotDims.rhsIdx
  rw [dif_neg (show ¬(1 : Fin S768x768.rank) ∈ dot_S2048x768_S768x768_S2048x768_1_0_0_1_n_n.rhsBatch by decide), dif_pos (show (1 : Fin S768x768.rank) ∈ dot_S2048x768_S768x768_S2048x768_1_0_0_1_n_n.rhsNonContracting by decide)]
  rfl

/-- Row r of the product, column e: the sum over d of the left row's entry d times W's entry (d, e). -/
theorem matmul_at (l : FVec Ideal S2048x768 .bf16) (w : FVec Ideal S768x768 .bf16) (r : Fin 2048) (e : Fin 768) :
    matmul dot_S2048x768_S768x768_S2048x768_1_0_0_1_n_n none l w (constant S2048x768 .f32 0x00000000#32) (ix2 r e)
      = ∑ d : Fin 768, l (ix2 r d) * w (ix2 d e) := by
  simp only [matmul]
  rw [Ideal.matmul_constant_zero_apply, ← Equiv.sum_comp (contrEquiv1 dot_S2048x768_S768x768_S2048x768_1_0_0_1_n_n 768 rfl rfl).symm]
  refine Finset.sum_congr rfl fun k _ => ?_
  have hk := contrEquiv1_symm_val dot_S2048x768_S768x768_S2048x768_1_0_0_1_n_n 768 rfl rfl k
  have el : dot_S2048x768_S768x768_S2048x768_1_0_0_1_n_n.lhsIdx (ix2 r e) ((contrEquiv1 dot_S2048x768_S768x768_S2048x768_1_0_0_1_n_n 768 rfl rfl).symm k) = ix2 r k := funext fun a => Fin.ext (by
    match a with
    | ⟨0, _⟩ => exact lhs_dot_0 _ _
    | ⟨1, _⟩ => exact (lhs_dot_1 _ _).trans hk)
  have er : dot_S2048x768_S768x768_S2048x768_1_0_0_1_n_n.rhsIdx (ix2 r e) ((contrEquiv1 dot_S2048x768_S768x768_S2048x768_1_0_0_1_n_n 768 rfl rfl).symm k) = ix2 k e := funext fun a => Fin.ext (by
    match a with
    | ⟨0, _⟩ => exact (rhs_dot_0 _ _).trans hk
    | ⟨1, _⟩ => exact rhs_dot_1 _ _)
  rw [el, er]

/-! ## Layout steps -/

/-- The zero the padding splats, at the ideal values. -/
theorem pad_zero_bf16 : (Scalar.sitofp (F := Ideal) .bf16 (0#32 : BitVec 32)) = (0 : EReal) := by
  rw [Ideal.scalar_sitofp_def]; simp

/-- The kernel's named guard under the squared norm is ε². -/
theorem eps_sq_named : Named.named (F := Ideal) Cert.KernelIdeal.κ "eps_sq" (φ := .f32) 0x179ABE15#32 = epsSq :=
  IdealRules.named_const.ideal_named_scalar _ _ _ _ rfl

/-- Entry p's 14 rows followed by two rows of z: row n of the padded entry. -/
theorem padRows_at {α : Type} (x1 : S128x14x768.Idx → α) (z : α)
    (h : Shape.Concatenates [S128x14x768, S128x2x768] S128x16x768 1) (p : Fin 128) (n : Fin 16) (d : Fin 768) :
    concatenate S128x16x768 1 [⟨S128x14x768, x1⟩, ⟨S128x2x768, broadcast S128x2x768 z⟩] h (ix3 p n d)
      = pad16 (fun k => x1 (ix3 p k d)) z n := by
  unfold pad16
  split
  · next hn =>
    exact concatenate_pair_apply_left 1 x1 _ h (ix3 p n d) rfl (ix3 p ⟨n.val, hn⟩ d)
      (fun b => match b with | ⟨0, _⟩ => rfl | ⟨1, _⟩ => rfl | ⟨2, _⟩ => rfl)
  · next hn =>
    have hn16 := n.isLt
    refine (concatenate_pair_apply_right 1 x1 _ h (ix3 p n d) rfl rfl (ix3 p (⟨n.val - 14, by omega⟩ : Fin 2) d)
      (fun b hb => match b, hb with | ⟨0, _⟩, _ => rfl | ⟨1, _⟩, hb => absurd rfl hb | ⟨2, _⟩, _ => rfl) ?_).trans rfl
    show n.val - 14 + 14 = n.val
    omega

/-- The 128 × 16 rows as one 2048-row matrix: row 16 p + n is row n of entry p. -/
theorem rows_at {α : Type} (x : S128x16x768.Idx → α) (h : S128x16x768.ShapeCasts S2048x768)
    (p : Fin 128) (n : Fin 16) (d : Fin 768) (r : Fin 2048) (hr : r.val = p.val * 16 + n.val) :
    shapeCast S2048x768 x h (ix2 r d) = x (ix3 p n d) :=
  shapeCast_apply x h _ _ (by
    rw [Shape.rowMajor_val_two, Shape.rowMajor_val_three]
    show (p.val * 16 + n.val) * 768 + d.val = r.val * 768 + d.val
    rw [hr])

/-- and back: entry p's row n is row 16 p + n of the matrix. -/
theorem unrows_at {α : Type} (x : S2048x768.Idx → α) (h : S2048x768.ShapeCasts S128x16x768)
    (p : Fin 128) (n : Fin 16) (e : Fin 768) (r : Fin 2048) (hr : r.val = p.val * 16 + n.val) :
    shapeCast S128x16x768 x h (ix3 p n e) = x (ix2 r e) :=
  shapeCast_apply x h _ _ (by
    rw [Shape.rowMajor_val_two, Shape.rowMajor_val_three]
    show r.val * 768 + e.val = (p.val * 16 + n.val) * 768 + e.val
    rw [hr])

/-- The bias row copied down the 2048 rows. -/
theorem biasRows_at {α : Type} (v : S1x768.Idx → α) (h : S1x768.Broadcasts S2048x768) (r : Fin 2048) (e : Fin 768) :
    broadcastTo S2048x768 v h (ix2 r e) = v (ix2 (0 : Fin 1) e) :=
  broadcastTo_apply v h (ix2 r e) (ix2 (0 : Fin 1) e) fun ax =>
    match ax with
    | ⟨0, _⟩ => rfl
    | ⟨1, _⟩ => rfl

/-! ## The projected rows and their normalisation -/

/-- The 2048 × 768 matrix of projected rows: the padded rows times W, plus the bias. -/
def proj (v0 : Vec Ideal S128x14x768 .f32) (v6 : Vec Ideal S768x768 .bf16) (v9 : Vec Ideal S1x768 .f32) : FVec Ideal S2048x768 .f32 :=
  addf (matmul dot_S2048x768_S768x768_S2048x768_1_0_0_1_n_n none
      (shapeCast S2048x768 (concatenate S128x16x768 1 [⟨S128x14x768, (truncf .bf16 (v0 : FVec Ideal S128x14x768 .f32) bitsLt_bf16_f32 : FVec Ideal S128x14x768 .bf16)⟩, ⟨S128x2x768, (broadcast S128x2x768 (Scalar.sitofp (F := Ideal) .bf16 0#32) : FVec Ideal S128x2x768 .bf16)⟩] concatenates_S128x14x768_S128x2x768_S128x16x768_d1 : FVec Ideal S128x16x768 .bf16) shapeCasts_S128x16x768_S2048x768 : FVec Ideal S2048x768 .bf16)
      (shapeCast S768x768 (v6 : FVec Ideal S768x768 .bf16) shapeCasts_S768x768_S768x768 : FVec Ideal S768x768 .bf16) (constant S2048x768 .f32 0x00000000#32))
    (broadcastTo S2048x768 (shapeCast S1x768 (v9 : FVec Ideal S1x768 .f32) shapeCasts_S1x768_S1x768 : FVec Ideal S1x768 .f32) broadcasts_S1x768_S2048x768)

/-- Row 16 p + n of the projected matrix is the projection of entry p's padded row n. -/
theorem proj_at (v0 : Vec Ideal S128x14x768 .f32) (v6 : Vec Ideal S768x768 .bf16) (v9 : Vec Ideal S1x768 .f32)
    (p : Fin 128) (n : Fin 16) (e : Fin 768) (r : Fin 2048) (hr : r.val = p.val * 16 + n.val) :
    proj v0 v6 v9 (ix2 r e)
      = feat16 (fun k d => v0 (ix3 p k d)) (fun d e => v6 (ix2 d e)) (fun e => v9 (ix2 (0 : Fin 1) e)) n e := by
  unfold proj
  rw [addf_apply, matmul_at, biasRows_at, shapeCast_self, shapeCast_self]
  unfold feat16 x16
  congr 1
  refine Finset.sum_congr rfl fun d _ => ?_
  rw [rows_at _ _ p n d r hr, padRows_at, pad_zero_bf16]
  rfl

/-- The body's normalised rows as the tree of operations over the projected matrix. -/
theorem pay2_eq (v0 : Vec Ideal S128x14x768 .f32) (v6 : Vec Ideal S768x768 .bf16) (v9 : Vec Ideal S1x768 .f32) :
    k0_pay2 (F := Ideal) v0 v6 v9
      = shapeCast S128x16x768 (mulf (proj v0 v6 v9) (broadcastTo S2048x768 (rsqrt (maximumf
          (shapeCast S2048x1 (multiReduction .add [1] S2048 (mulf (proj v0 v6 v9) (proj v0 v6 v9)) 0x00000000#32 reduces_S2048x768_S2048 (.inl rfl) rfl) shapeCasts_S2048_S2048x1)
          (broadcast S2048x1 (Named.named κ "eps_sq" 0x179ABE15#32)))) broadcasts_S2048x1_S2048x768)) shapeCasts_S2048x768_S128x16x768 := rfl

/-- The normalised rows at (p, n, e): `nf16` of entry p's rows. -/
theorem pay2_apply (v0 : Vec Ideal S128x14x768 .f32) (v6 : Vec Ideal S768x768 .bf16) (v9 : Vec Ideal S1x768 .f32)
    (p : Fin 128) (n : Fin 16) (e : Fin 768) :
    k0_pay2 (F := Ideal) v0 v6 v9 (ix3 p n e)
      = nf16 (fun k d => v0 (ix3 p k d)) (fun d e => v6 (ix2 d e)) (fun e => v9 (ix2 (0 : Fin 1) e)) n e := by
  have hr16 : p.val * 16 + n.val < 2048 := by have := p.isLt; have := n.isLt; omega
  rw [pay2_eq]
  refine (unrows_at _ _ p n e ⟨p.val * 16 + n.val, hr16⟩ rfl).trans ?_
  rw [mulf_apply]
  unfold nf16
  refine congrArg₂ (· * ·) (proj_at v0 v6 v9 p n e _ rfl) ?_
  refine (Cert.RowOps.broadcastTo_a1_ab_apply _ _ _ _).trans ?_
  show Ideal.rsqrt (max (shapeCast S2048x1 _ shapeCasts_S2048_S2048x1 (ix2 _ (0 : Fin 1))) (Named.named (F := Ideal) κ "eps_sq" (φ := .f32) 0x179ABE15#32)) = _
  refine congrArg Ideal.rsqrt (congrArg₂ max ?_ eps_sq_named)
  refine (Cert.RowOps.shapeCast_a_a1_apply _ _ _ _).trans ?_
  refine (Cert.RowOps.laneSum_apply _ _ _ _ _).trans ?_
  unfold ssq16
  refine Finset.sum_congr rfl fun e' _ => ?_
  rw [mulf_apply, proj_at v0 v6 v9 p n e' _ rfl]

end Cert.KernelIdeal.Hand

end
-- ==== Proof.KCols.lean ====
/-
  The sixteen similarity columns read at an index.

  Column k of the similarities is, for every entry p and row n, the inner product of normalised row n with normalised row k:
  the body takes row k of every entry (a [128, 1, 768] slice), copies it over the 16 rows, multiplies by the rows and sums
  over the 768 lanes. The sixteen payloads are this one expression at k = 0, …, 15.
-/
import proofs.«424087_j15942918603390_3_alg».proof.Proof.Gen.KernelIdeal.Skeleton
import proofs.«424087_j15942918603390_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Cert.Spec Idealize.ShloMosaic Idealize.ShloMosaic.ValueIdx

/-- The sum over the last axis of an [a, b, c] array of extended reals, read at (p, n): the sum over e of entry (p, n, e). -/
theorem lanesSum_at {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (n : Fin b) :
    multiReduction .add [2] ⟨2, ![a, b]⟩ src 0x00000000#32 h hφ hacc (ix2 p n) = ∑ e : Fin c, src (ix3 p n e) := by
  refine (Ideal.multiReduction_add_single src 0x00000000#32 h hφ hacc (ix2 p n)).trans ?_
  refine Finset.sum_congr rfl fun e _ => congrArg src (funext fun ax => Fin.ext ?_)
  show h.liftVal (ix2 p n) e.val ax = _
  match ax with
  | ⟨0, _⟩ => simp [Shape.Reduces.liftVal]
  | ⟨1, _⟩ => simp [Shape.Reduces.liftVal]
  | ⟨2, _⟩ => simp [Shape.Reduces.liftVal]

/-- Row k of every entry, copied over the 16 rows: at (p, n, e) it is the array at (p, k, e). -/
theorem rowCopy_at {α : Type} (x : S128x16x768.Idx → α) (k : Fin 16) (hs : S128x16x768.Slices ![0, k.val, 0] S128x1x768)
    (hb : S128x1x768.Broadcasts S128x16x768) (p : Fin 128) (n : Fin 16) (e : Fin 768) :
    broadcastTo S128x16x768 (extractStridedSlice S128x1x768 ![0, k.val, 0] x hs) hb (ix3 p n e) = x (ix3 p k e) := by
  refine (broadcastTo_apply _ hb (ix3 p n e) (ix3 p (0 : Fin 1) e) fun ax =>
    match ax with
    | ⟨0, _⟩ => rfl
    | ⟨1, _⟩ => rfl
    | ⟨2, _⟩ => rfl).trans ?_
  exact extractStridedSlice_apply _ x hs (ix3 p (0 : Fin 1) e) (ix3 p k e) fun ax =>
    match ax with
    | ⟨0, _⟩ => (Nat.zero_add _).symm
    | ⟨1, _⟩ => rfl
    | ⟨2, _⟩ => (Nat.zero_add _).symm

/-- Similarity column k of an array v of rows: the rows times row k, summed over the lanes. -/
def simCol (v : FVec Ideal S128x16x768 .f32) (k : Fin 16) (hs : S128x16x768.Slices ![0, k.val, 0] S128x1x768) : FVec Ideal S128x16 .f32 :=
  multiReduction .add [2] S128x16 (mulf v (broadcastTo S128x16x768 (extractStridedSlice S128x1x768 ![0, k.val, 0] v hs) broadcasts_S128x1x768_S128x16x768))
    0x00000000#32 reduces_S128x16x768_S128x16 (.inl rfl) rfl

/-- Column k at (p, n): the inner product of rows n and k of entry p. -/
theorem simCol_at (v : FVec Ideal S128x16x768 .f32) (k : Fin 16) (hs : S128x16x768.Slices ![0, k.val, 0] S128x1x768)
    (p : Fin 128) (n : Fin 16) : simCol v k hs (ix2 p n) = ∑ e : Fin 768, v (ix3 p n e) * v (ix3 p k e) := by
  unfold simCol
  refine (lanesSum_at _ _ _ _ p n).trans ?_
  refine Finset.sum_congr rfl fun e _ => ?_
  rw [mulf_apply]
  exact congrArg (v (ix3 p n e) * ·) (rowCopy_at v k hs _ p n e)

/-- The sixteen Slices facts, one name. -/
theorem slicesRow : (k : Fin 16) → S128x16x768.Slices ![0, k.val, 0] S128x1x768
  | ⟨0, _⟩ => slices_S128x16x768_o0_0_0_S128x1x768
  | ⟨1, _⟩ => slices_S128x16x768_o0_1_0_S128x1x768
  | ⟨2, _⟩ => slices_S128x16x768_o0_2_0_S128x1x768
  | ⟨3, _⟩ => slices_S128x16x768_o0_3_0_S128x1x768
  | ⟨4, _⟩ => slices_S128x16x768_o0_4_0_S128x1x768
  | ⟨5, _⟩ => slices_S128x16x768_o0_5_0_S128x1x768
  | ⟨6, _⟩ => slices_S128x16x768_o0_6_0_S128x1x768
  | ⟨7, _⟩ => slices_S128x16x768_o0_7_0_S128x1x768
  | ⟨8, _⟩ => slices_S128x16x768_o0_8_0_S128x1x768
  | ⟨9, _⟩ => slices_S128x16x768_o0_9_0_S128x1x768
  | ⟨10, _⟩ => slices_S128x16x768_o0_10_0_S128x1x768
  | ⟨11, _⟩ => slices_S128x16x768_o0_11_0_S128x1x768
  | ⟨12, _⟩ => slices_S128x16x768_o0_12_0_S128x1x768
  | ⟨13, _⟩ => slices_S128x16x768_o0_13_0_S128x1x768
  | ⟨14, _⟩ => slices_S128x16x768_o0_14_0_S128x1x768
  | ⟨15, _⟩ => slices_S128x16x768_o0_15_0_S128x1x768
  | ⟨k + 16, h⟩ => absurd h (by omega)

/-- All sixteen columns of an array of rows. -/
def cols (v : FVec Ideal S128x16x768 .f32) (k : Fin 16) : FVec Ideal S128x16 .f32 := simCol v k (slicesRow k)

theorem cols_at (v : FVec Ideal S128x16x768 .f32) (k : Fin 16) (p : Fin 128) (n : Fin 16) :
    cols v k (ix2 p n) = ∑ e : Fin 768, v (ix3 p n e) * v (ix3 p k e) := simCol_at v k _ p n

/-! The payloads are these columns (columns 0 to 5 already cast to [128, 16, 1]). -/

theorem pay9_eq (v : FVec Ideal S128x16x768 .f32) : k0_pay9 (F := Ideal) v = cols v 6 := rfl
theorem pay10_eq (v : FVec Ideal S128x16x768 .f32) : k0_pay10 (F := Ideal) v = cols v 7 := rfl
theorem pay11_eq (v : FVec Ideal S128x16x768 .f32) : k0_pay11 (F := Ideal) v = cols v 8 := rfl
theorem pay12_eq (v : FVec Ideal S128x16x768 .f32) : k0_pay12 (F := Ideal) v = cols v 9 := rfl
theorem pay13_eq (v : FVec Ideal S128x16x768 .f32) : k0_pay13 (F := Ideal) v = cols v 10 := rfl
theorem pay14_eq (v : FVec Ideal S128x16x768 .f32) : k0_pay14 (F := Ideal) v = cols v 11 := rfl
theorem pay15_eq (v : FVec Ideal S128x16x768 .f32) : k0_pay15 (F := Ideal) v = cols v 12 := rfl
theorem pay16_eq (v : FVec Ideal S128x16x768 .f32) : k0_pay16 (F := Ideal) v = cols v 13 := rfl
theorem pay17_eq (v : FVec Ideal S128x16x768 .f32) : k0_pay17 (F := Ideal) v = cols v 14 := rfl
theorem pay18_eq (v : FVec Ideal S128x16x768 .f32) : k0_pay18 (F := Ideal) v = cols v 15 := rfl

theorem pay19_eq (v0 : Vec Ideal S128x14x768 .f32) (v6 : Vec Ideal S768x768 .bf16) (v9 : Vec Ideal S1x768 .f32) :
    k0_pay19 (F := Ideal) (k0_pay3 v0 v6 v9) = shapeCast S128x16x1 (cols (k0_pay2 v0 v6 v9) 0) shapeCasts_S128x16_S128x16x1 := rfl
theorem pay20_eq (v0 : Vec Ideal S128x14x768 .f32) (v6 : Vec Ideal S768x768 .bf16) (v9 : Vec Ideal S1x768 .f32) :
    k0_pay20 (F := Ideal) (k0_pay4 v0 v6 v9) = shapeCast S128x16x1 (cols (k0_pay2 v0 v6 v9) 1) shapeCasts_S128x16_S128x16x1 := rfl
theorem pay21_eq (v0 : Vec Ideal S128x14x768 .f32) (v6 : Vec Ideal S768x768 .bf16) (v9 : Vec Ideal S1x768 .f32) :
    k0_pay21 (F := Ideal) (k0_pay5 v0 v6 v9) = shapeCast S128x16x1 (cols (k0_pay2 v0 v6 v9) 2) shapeCasts_S128x16_S128x16x1 := rfl
theorem pay22_eq (v0 : Vec Ideal S128x14x768 .f32) (v6 : Vec Ideal S768x768 .bf16) (v9 : Vec Ideal S1x768 .f32) :
    k0_pay22 (F := Ideal) (k0_pay6 v0 v6 v9) = shapeCast S128x16x1 (cols (k0_pay2 v0 v6 v9) 3) shapeCasts_S128x16_S128x16x1 := rfl
theorem pay23_eq (v0 : Vec Ideal S128x14x768 .f32) (v6 : Vec Ideal S768x768 .bf16) (v9 : Vec Ideal S1x768 .f32) :
    k0_pay23 (F := Ideal) (k0_pay7 v0 v6 v9) = shapeCast S128x16x1 (cols (k0_pay2 v0 v6 v9) 4) shapeCasts_S128x16_S128x16x1 := rfl
theorem pay24_eq (v0 : Vec Ideal S128x14x768 .f32) (v6 : Vec Ideal S768x768 .bf16) (v9 : Vec Ideal S1x768 .f32) :
    k0_pay24 (F := Ideal) (k0_pay2 v0 v6 v9) (k0_pay8 v0 v6 v9) = shapeCast S128x16x1 (cols (k0_pay2 v0 v6 v9) 5) shapeCasts_S128x16_S128x16x1 := rfl

end Cert.KernelIdeal.Hand

end
-- ==== Proof.KTail.lean ====
/-
  Two of the kernel's pure values read at an index.

  * The last value stored: the exponential of its argument, over the sum of the exponentials along the 16 key columns,
    kept on the 14 × 14 corner. At (p, n, m) it is exp (v (p, n, m)) / Σ_k exp (v (p, n, k)).
  * The argument of that exponential: the sixteen similarity columns laid side by side, times the padded areas' products
    over their largest plus ε₈, times the padded weights, the two padded key columns filled with −∞, less the row's
    maximum. At (p, n, m) it is the masked entry less its row's maximum, as the specification spells it on 16 rows and
    16 key columns.

  Each layout operation is read at an index written by coordinates; each reduction as a sum or a fold of max over the
  reduced axis's coordinates.
-/
import proofs.«424087_j15942918603390_3_alg».proof.Proof.Gen.KernelIdeal.Skeleton
import proofs.«424087_j15942918603390_3_alg».proof.Proof.Spec
import proofs.«424087_j15942918603390_3_alg».proof.Proof.LibRowOps
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules
import Idealize.ShloMosaic.Lib.StableHlo.Predicate

noncomputable section

namespace Cert.KernelIdeal.Hand

open Cert.KernelIdeal Cert.KernelIdeal.Gen Cert.Spec Idealize.ShloMosaic Idealize.ShloMosaic.ValueIdx

/-! ## Layout operations at rank 3, read at an index given by coordinates -/

section Layout
variable {α : Type}

/-- The leading corner of a rank-3 array: entry (p, n, m) of the corner is the array's entry with the same coordinates. -/
theorem corner3_apply {a b c b' c' : ℕ} (X : (⟨3, ![a, b, c]⟩ : Shape).Idx → α)
    (h : (⟨3, ![a, b, c]⟩ : Shape).Slices ![0, 0, 0] ⟨3, ![a, b', c']⟩)
    (p : Fin a) (n : Fin b') (m : Fin c') (n' : Fin b) (m' : Fin c) (hn : n'.val = n.val) (hm : m'.val = m.val) :
    extractStridedSlice ⟨3, ![a, b', c']⟩ ![0, 0, 0] X h (ix3 p n m) = X (ix3 p n' m') :=
  extractStridedSlice_apply _ _ _ _ _ (fun ax => by
    match ax with
    | ⟨0, _⟩ => exact (Nat.zero_add _).symm
    | ⟨1, _⟩ => exact hn.trans (Nat.zero_add _).symm
    | ⟨2, _⟩ => exact hm.trans (Nat.zero_add _).symm)

/-- A matrix cast to a stack of columns: entry (i, j, 0) is the matrix's entry (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A matrix cast to a stack of rows: entry (i, 0, j) is the matrix's entry (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A stack of columns broadcast along the unit axis: entry (p, n, m) is the column stack's entry (p, n, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (n : Fin b) (m : Fin c) :
    broadcastTo ⟨3, ![a, b, c]⟩ v h (ix3 p n m) = v (ix3 p n (0 : Fin 1)) := by
  refine broadcastTo_apply v h (ix3 p n m) (ix3 p n (0 : Fin 1)) fun ax => ?_
  match ax with
  | ⟨0, _⟩ =>
    show p.val = if a = 1 then 0 else p.val
    split
    · have := p.isLt; omega
    · rfl
  | ⟨1, _⟩ =>
    show n.val = if b = 1 then 0 else n.val
    split
    · have := n.isLt; omega
    · rfl
  | ⟨2, _⟩ => rfl

/-- A stack of rows broadcast along the unit axis: entry (p, n, m) is the row stack's entry (p, 0, m). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (n : Fin b) (m : Fin c) :
    broadcastTo ⟨3, ![a, b, c]⟩ v h (ix3 p n m) = v (ix3 p (0 : Fin 1) m) := by
  refine broadcastTo_apply v h (ix3 p n m) (ix3 p (0 : Fin 1) m) fun ax => ?_
  match ax with
  | ⟨0, _⟩ =>
    show p.val = if a = 1 then 0 else p.val
    split
    · have := p.isLt; omega
    · rfl
  | ⟨1, _⟩ => rfl
  | ⟨2, _⟩ =>
    show m.val = if c = 1 then 0 else m.val
    split
    · have := m.isLt; omega
    · rfl

/-- One number per leading coordinate broadcast over both other axes: entry (p, n, m) is the entry (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (n : Fin b) (m : Fin c) :
    broadcastTo ⟨3, ![a, b, c]⟩ v h (ix3 p n m) = v (ix3 p (0 : Fin 1) (0 : Fin 1)) := by
  refine broadcastTo_apply v h (ix3 p n m) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- One matrix broadcast over a leading axis: entry (p, n, m) is the matrix's entry (0, n, m). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (n : Fin b) (m : Fin c) :
    broadcastTo ⟨3, ![a, b, c]⟩ v h (ix3 p n m) = v (ix3 (0 : Fin 1) n m) := by
  refine broadcastTo_apply v h (ix3 p n m) (ix3 (0 : Fin 1) n m) fun ax => ?_
  match ax with
  | ⟨0, _⟩ => rfl
  | ⟨1, _⟩ =>
    show n.val = if b = 1 then 0 else n.val
    split
    · have := n.isLt; omega
    · rfl
  | ⟨2, _⟩ =>
    show m.val = if c = 1 then 0 else m.val
    split
    · have := m.isLt; omega
    · rfl

end Layout

/-! ## Reductions over one axis of a rank-3 array of extended reals -/

/-- The sum over the last axis, read at (p, n): the sum over k of entry (p, n, k). -/
theorem laneSum3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (n : Fin b) :
    multiReduction .add [2] ⟨2, ![a, b]⟩ src 0x00000000#32 h hφ hacc (ix2 p n) = ∑ k : Fin c, src (ix3 p n k) := by
  refine (Ideal.multiReduction_add_single src 0x00000000#32 h hφ hacc (ix2 p n)).trans ?_
  refine Finset.sum_congr rfl fun k _ => congrArg src (funext fun d => Fin.ext ?_)
  show h.liftVal (ix2 p n) k.val d = _
  match d with
  | ⟨0, _⟩ => simp [Shape.Reduces.liftVal]
  | ⟨1, _⟩ => simp [Shape.Reduces.liftVal]
  | ⟨2, _⟩ => simp [Shape.Reduces.liftVal]

/-- The maximum over the last axis, read at (p, n): the fold of max over k of entry (p, n, k). -/
theorem laneMax3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (n : Fin b) :
    multiReduction .maximumf [2] ⟨2, ![a, b]⟩ src acc h hφ hacc (ix2 p n)
      = (Finset.univ : Finset (Fin c)).fold max (Ideal.ofBits .f32 acc) fun k => src (ix3 p n k) := by
  refine (Ideal.multiReduction_maximumf_single src acc h hφ hacc (ix2 p n)).trans ?_
  refine congrArg (fun f => (Finset.univ : Finset (Fin c)).fold max (Ideal.ofBits .f32 acc) f)
    (funext fun k => congrArg src (funext fun d => Fin.ext ?_))
  show h.liftVal (ix2 p n) k.val d = _
  match d with
  | ⟨0, _⟩ => simp [Shape.Reduces.liftVal]
  | ⟨1, _⟩ => simp [Shape.Reduces.liftVal]
  | ⟨2, _⟩ => simp [Shape.Reduces.liftVal]

/-- The maximum over the middle axis, read at (p, u): the fold of max over k of entry (p, k, u). -/
theorem midMax3_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.maximumf.neutral .f32 hφ) (p : Fin a) (u : Fin c) :
    multiReduction .maximumf [1] ⟨2, ![a, c]⟩ src acc h hφ hacc (ix2 p u)
      = (Finset.univ : Finset (Fin b)).fold max (Ideal.ofBits .f32 acc) fun k => src (ix3 p k u) := by
  refine (Ideal.multiReduction_maximumf_single src acc h hφ hacc (ix2 p u)).trans ?_
  refine congrArg (fun f => (Finset.univ : Finset (Fin b)).fold max (Ideal.ofBits .f32 acc) f)
    (funext fun k => congrArg src (funext fun d => Fin.ext ?_))
  show h.liftVal (ix2 p u) k.val d = _
  match d with
  | ⟨0, _⟩ => simp [Shape.Reduces.liftVal]
  | ⟨1, _⟩ => simp [Shape.Reduces.liftVal]
  | ⟨2, _⟩ => simp [Shape.Reduces.liftVal]

/-! ## The stored value -/

/-- The exponential over its sum along the key columns, on the 14 × 14 corner. -/
theorem pay1_apply (v139 : FVec Ideal S128x16x16 .f32) (p : Fin 128) (n m : Fin 14) :
    k0_pay1 (F := Ideal) v139 (ix3 p n m)
      = Ideal.div (Ideal.exp (v139 (ix3 p (up n) (up m)))) (∑ k : Fin 16, Ideal.exp (v139 (ix3 p (up n) k))) := by
  unfold k0_pay1
  refine (corner3_apply _ _ p n m (up n) (up m) rfl rfl).trans ?_
  refine (divf_apply _ _ _).trans ?_
  refine congrArg (Ideal.div (Ideal.exp (v139 (ix3 p (up n) (up m))))) ?_
  refine (broadcastTo_ab1_abc_apply _ _ p (up n) (up m)).trans ?_
  refine (shapeCast_ab_ab1_apply _ _ p (up n) (0 : Fin 1)).trans ?_
  exact laneSum3_apply _ _ _ _ p (up n)

/-! ## Words and constants at the ideal values -/

/-- The integer zero converted to a float is the extended real 0. -/
theorem sitofp_zero : Scalar.sitofp (F := Ideal) .f32 (0#32) = (0 : EReal) := by
  rw [Ideal.scalar_sitofp_def]; simp

/-- The f32 word of −∞ is the extended real ⊥. -/
theorem ofBits_negInf : Ideal.ofBits .f32 0xFF800000#32 = (⊥ : EReal) := by
  simp [Ideal.ofBits, Ideal.ieee]

/-- The named fill of the padded key columns is ⊥. -/
theorem negBig_eq : Named.named (F := Ideal) Cert.KernelIdeal.κ "neg_big" (φ := .f32) 0xFF333332#32 = (⊥ : EReal) :=
  IdealRules.named_const.ideal_named_scalar _ _ _ _ rfl

/-- Folds of max over the same index set from the same start agree when their functions agree pointwise. -/
theorem fold_max_congr {N : ℕ} (b : EReal) {f g : Fin N → EReal} (h : ∀ k, f k = g k) :
    (Finset.univ : Finset (Fin N)).fold max b f = (Finset.univ : Finset (Fin N)).fold max b g :=
  congrArg (fun f => (Finset.univ : Finset (Fin N)).fold max b f) (funext h)

/-! ## The mask of the two padded key columns -/

/-- Column m of 16 is below 14 exactly when the signed comparison of its number with 14 says so. -/
theorem slt14_iff (m : Fin 16) : IntOp.cmpi .slt (BitVec.ofNat 32 m.val) 14#32 = 1#1 ↔ m.val < 14 := by
  have hm := m.isLt
  have h := StableHlo.Predicate.slt_iff_toNat (a := BitVec.ofNat 32 m.val) (b := 14#32)
    (by rw [BitVec.toNat_ofNat]; omega) (by decide)
  rw [BitVec.toNat_ofNat, Nat.mod_eq_of_lt (by omega)] at h
  exact h

/-- Entries in key columns below 14 are kept; the two padded columns read ⊥. -/
theorem mask_apply (X : FVec Ideal S128x16x16 .f32) (h : S128x16x16.Iotas .tc 32 [2]) (p : Fin 128) (n m : Fin 16) :
    select (cmpi .slt (iota .tc S128x16x16 32 [2] h) (broadcast S128x16x16 14#32)) X
        (broadcast S128x16x16 (Named.named (F := Ideal) Cert.KernelIdeal.κ "neg_big" (φ := .f32) 0xFF333332#32)) (ix3 p n m)
      = if m.val < 14 then X (ix3 p n m) else ⊥ := by
  show Scalar.select (IntOp.cmpi .slt (iota .tc S128x16x16 32 [2] h (ix3 p n m)) 14#32) (X (ix3 p n m))
      (Named.named (F := Ideal) Cert.KernelIdeal.κ "neg_big" (φ := .f32) 0xFF333332#32) = _
  rw [iota_single_apply, negBig_eq]
  show Scalar.select (IntOp.cmpi .slt (BitVec.ofNat 32 m.val) 14#32) _ _ = _
  by_cases hlt : m.val < 14
  · rw [if_pos hlt, (slt14_iff m).mpr hlt, select_one]
  · rw [if_neg hlt, eq_zero_of_ne_one (fun h1 => hlt ((slt14_iff m).mp h1)), select_zero]

/-! ## The padded areas and the padded weights -/

/-- The areas padded by two zero columns: entry (p, n) is the specification's padded family at n. -/
theorem padA_apply (v103 : Vec Ideal S128x14 .f32) (h : Shape.Concatenates [S128x14, S128x2] S128x16 1) (p : Fin 128) (n : Fin 16) :
    concatenate S128x16 1 [⟨S128x14, v103⟩, ⟨S128x2, broadcast S128x2 (Scalar.sitofp (F := Ideal) .f32 0#32)⟩] h (ix2 p n)
      = a16 (fun k => v103 (ix2 p k)) n := by
  unfold a16 pad16
  by_cases hn : n.val < 14
  · rw [dif_pos hn]
    exact concatenate_pair_apply_left 1 v103 _ h (ix2 p n) rfl (ix2 p ⟨n.val, hn⟩) (fun b => by
      match b with
      | ⟨0, _⟩ => rfl
      | ⟨1, _⟩ => rfl)
  · rw [dif_neg hn]
    refine (concatenate_pair_apply_right 1 v103 _ h (ix2 p n) rfl rfl
      (ix2 p ⟨n.val - 14, by have := n.isLt; omega⟩) (fun b hb => ?_) ?_).trans ?_
    · match b with
      | ⟨0, _⟩ => rfl
      | ⟨1, _⟩ => exact absurd rfl hb
    · show (n.val - 14) + 14 = n.val
      omega
    · exact sitofp_zero

/-- The weights padded by two zero rows and two zero columns, one copy per leading coordinate: entry (p, n, m) is the
    specification's padded matrix at (n, m). -/
theorem cwPad_apply (v120 : Vec Ideal S14x14 .f32) (h0 : S14x14.ShapeCasts S14x14)
    (h1 : Shape.Concatenates [S14x14, S2x14] S16x14 0) (h2 : Shape.Concatenates [S16x14, S16x2] S16x16 1)
    (h3 : S16x16.ShapeCasts S1x16x16) (h4 : S1x16x16.Broadcasts S128x16x16) (p : Fin 128) (n m : Fin 16) :
    broadcastTo S128x16x16 (shapeCast S1x16x16 (concatenate S16x16 1
        [⟨S16x14, concatenate S16x14 0 [⟨S14x14, shapeCast S14x14 v120 h0⟩,
            ⟨S2x14, broadcast S2x14 (Scalar.sitofp (F := Ideal) .f32 0#32)⟩] h1⟩,
          ⟨S16x2, broadcast S16x2 (Scalar.sitofp (F := Ideal) .f32 0#32)⟩] h2) h3) h4 (ix3 p n m)
      = cw16 (fun k l => v120 (ix2 k l)) n m := by
  refine (broadcastTo_1bc_abc_apply _ h4 p n m).trans ?_
  refine (shapeCast_ab_1ab_apply _ h3 (0 : Fin 1) n m).trans ?_
  unfold cw16 pad16
  have hnlt := n.isLt
  have hmlt := m.isLt
  by_cases hm : m.val < 14
  · refine (concatenate_pair_apply_left 1 _ _ h2 (ix2 n m) rfl (ix2 n ⟨m.val, hm⟩) (fun b => by
      match b with
      | ⟨0, _⟩ => rfl
      | ⟨1, _⟩ => rfl)).trans ?_
    by_cases hn : n.val < 14
    · rw [dif_pos hn]
      show _ = if h : m.val < 14 then v120 (ix2 ⟨n.val, hn⟩ ⟨m.val, h⟩) else 0
      rw [dif_pos hm]
      refine (concatenate_pair_apply_left 0 _ _ h1 (ix2 n ⟨m.val, hm⟩) rfl (ix2 ⟨n.val, hn⟩ ⟨m.val, hm⟩) (fun b => by
        match b with
        | ⟨0, _⟩ => rfl
        | ⟨1, _⟩ => rfl)).trans ?_
      rw [shapeCast_self]
    · rw [dif_neg hn]
      refine (concatenate_pair_apply_right 0 _ _ h1 (ix2 n ⟨m.val, hm⟩) rfl rfl
        (ix2 ⟨n.val - 14, by omega⟩ ⟨m.val, hm⟩) (fun b hb => ?_) ?_).trans ?_
      · match b with
        | ⟨0, _⟩ => exact absurd rfl hb
        | ⟨1, _⟩ => rfl
      · show (n.val - 14) + 14 = n.val
        omega
      · exact sitofp_zero
  · refine (concatenate_pair_apply_right 1 _ _ h2 (ix2 n m) rfl rfl
      (ix2 n ⟨m.val - 14, by omega⟩) (fun b hb => ?_) ?_).trans ?_
    · match b with
      | ⟨0, _⟩ => rfl
      | ⟨1, _⟩ => exact absurd rfl hb
    · show (m.val - 14) + 14 = m.val
      omega
    · refine sitofp_zero.trans ?_
      by_cases hn : n.val < 14
      · rw [dif_pos hn]
        show (0 : EReal) = if h : m.val < 14 then v120 (ix2 ⟨n.val, hn⟩ ⟨m.val, h⟩) else 0
        rw [dif_neg hm]
      · rw [dif_neg hn]

/-! ## The sixteen similarity columns side by side -/

/-- Sixteen columns, each cast to a stack of unit columns, laid along the last axis: entry (p, n, m) is column m's
    entry (p, n). -/
theorem cols_apply (cols : Fin 16 → FVec Ideal S128x16 .f32) (hc : S128x16.ShapeCasts S128x16x1)
    (h : Shape.Concatenates [S128x16x1, S128x16x1, S128x16x1, S128x16x1, S128x16x1, S128x16x1, S128x16x1, S128x16x1,
      S128x16x1, S128x16x1, S128x16x1, S128x16x1, S128x16x1, S128x16x1, S128x16x1, S128x16x1] S128x16x16 2)
    (p : Fin 128) (n m : Fin 16) :
    concatenate S128x16x16 2 [⟨S128x16x1, shapeCast S128x16x1 (cols 0) hc⟩, ⟨S128x16x1, shapeCast S128x16x1 (cols 1) hc⟩,
        ⟨S128x16x1, shapeCast S128x16x1 (cols 2) hc⟩, ⟨S128x16x1, shapeCast S128x16x1 (cols 3) hc⟩,
        ⟨S128x16x1, shapeCast S128x16x1 (cols 4) hc⟩, ⟨S128x16x1, shapeCast S128x16x1 (cols 5) hc⟩,
        ⟨S128x16x1, shapeCast S128x16x1 (cols 6) hc⟩, ⟨S128x16x1, shapeCast S128x16x1 (cols 7) hc⟩,
        ⟨S128x16x1, shapeCast S128x16x1 (cols 8) hc⟩, ⟨S128x16x1, shapeCast S128x16x1 (cols 9) hc⟩,
        ⟨S128x16x1, shapeCast S128x16x1 (cols 10) hc⟩, ⟨S128x16x1, shapeCast S128x16x1 (cols 11) hc⟩,
        ⟨S128x16x1, shapeCast S128x16x1 (cols 12) hc⟩, ⟨S128x16x1, shapeCast S128x16x1 (cols 13) hc⟩,
        ⟨S128x16x1, shapeCast S128x16x1 (cols 14) hc⟩, ⟨S128x16x1, shapeCast S128x16x1 (cols 15) hc⟩] h (ix3 p n m)
      = cols m (ix2 p n) := by
  refine (concatenate_ofFn_unit_apply (t := S128x16x16) (s₁ := S128x16x1) 2
    (fun k : Fin 16 => shapeCast S128x16x1 (cols k) hc) h rfl rfl (ix3 p n m) m rfl (ix3 p n (0 : Fin 1)) (fun b hb => ?_)).trans ?_
  · match b with
    | ⟨0, _⟩ => rfl
    | ⟨1, _⟩ => rfl
    | ⟨2, _⟩ => exact absurd rfl hb
  · exact shapeCast_ab_ab1_apply (cols m) hc p n (0 : Fin 1)

/-! ## The areas' products over their largest -/

/-- The outer product of a padded family with itself: entry (p, n, m) is the product of the entries (p, n) and (p, m). -/
theorem outer_apply (A : FVec Ideal S128x16 .f32) (c1 : S128x16.ShapeCasts S128x16x1) (c2 : S128x16.ShapeCasts S128x1x16)
    (b1 : S128x16x1.Broadcasts S128x16x16) (b2 : S128x1x16.Broadcasts S128x16x16) (p : Fin 128) (n m : Fin 16) :
    mulf (broadcastTo S128x16x16 (shapeCast S128x16x1 A c1) b1) (broadcastTo S128x16x16 (shapeCast S128x1x16 A c2) b2) (ix3 p n m)
      = A (ix2 p n) * A (ix2 p m) := by
  refine (mulf_apply _ _ _).trans ?_
  refine congrArg₂ (fun x y : EReal => x * y) ?_ ?_
  · refine (broadcastTo_ab1_abc_apply _ b1 p n m).trans ?_
    exact shapeCast_ab_ab1_apply A c1 p n (0 : Fin 1)
  · refine (broadcastTo_a1c_abc_apply _ b2 p n m).trans ?_
    exact shapeCast_ab_a1b_apply A c2 p (0 : Fin 1) m

/-- The maximum along the last axis and then along the middle one, kept as one number per leading coordinate: the fold
    of max over both. -/
theorem max2_apply (P : FVec Ideal S128x16x16 .f32) (g : Fin 16 → Fin 16 → EReal) (p : Fin 128)
    (hP : ∀ k l, P (ix3 p k l) = g k l)
    (r1 : S128x16x16.Reduces [2] S128x16) (c1 : S128x16.ShapeCasts S128x16x1) (r2 : S128x16x1.Reduces [1] S128x1)
    (c3 : S128x1.ShapeCasts S128x1x1) (hφ hφ' : FKind.Formats .f32)
    (hacc : (0xFF800000#32 : BitVec 32) = FKind.maximumf.neutral .f32 hφ)
    (hacc' : (0xFF800000#32 : BitVec 32) = FKind.maximumf.neutral .f32 hφ') (u u' : Fin 1) :
    shapeCast S128x1x1 (multiReduction .maximumf [1] S128x1
        (shapeCast S128x16x1 (multiReduction .maximumf [2] S128x16 P 0xFF800000#32 r1 hφ hacc) c1)
        0xFF800000#32 r2 hφ' hacc') c3 (ix3 p u u')
      = (Finset.univ : Finset (Fin 16)).fold max ⊥ fun k => (Finset.univ : Finset (Fin 16)).fold max ⊥ fun l => g k l := by
  refine (shapeCast_ab_ab1_apply _ c3 p u u').trans ?_
  refine (midMax3_apply _ _ r2 hφ' hacc' p u).trans ?_
  rw [ofBits_negInf]
  refine fold_max_congr ⊥ fun k => ?_
  refine (shapeCast_ab_ab1_apply _ c1 p k u).trans ?_
  refine (laneMax3_apply P _ r1 hφ hacc p k).trans ?_
  rw [ofBits_negInf]
  exact fold_max_congr ⊥ fun l => hP k l

/-- The areas' products over their largest plus ε₈: entry (p, n, m), for a padded family that reads f along row p. -/
theorem aw_apply (A : FVec Ideal S128x16 .f32) (f : Fin 16 → EReal) (p : Fin 128) (hA : ∀ k, A (ix2 p k) = f k) (n m : Fin 16)
    (c1 : S128x16.ShapeCasts S128x16x1) (c2 : S128x16.ShapeCasts S128x1x16)
    (b1 : S128x16x1.Broadcasts S128x16x16) (b2 : S128x1x16.Broadcasts S128x16x16)
    (r1 : S128x16x16.Reduces [2] S128x16) (r2 : S128x16x1.Reduces [1] S128x1)
    (c3 : S128x1.ShapeCasts S128x1x1) (b3 : S128x1x1.Broadcasts S128x16x16) :
    divf (mulf (broadcastTo S128x16x16 (shapeCast S128x16x1 A c1) b1) (broadcastTo S128x16x16 (shapeCast S128x1x16 A c2) b2))
        (broadcastTo S128x16x16 (addf (shapeCast S128x1x1 (multiReduction .maximumf [1] S128x1
            (shapeCast S128x16x1 (multiReduction .maximumf [2] S128x16
              (mulf (broadcastTo S128x16x16 (shapeCast S128x16x1 A c1) b1) (broadcastTo S128x16x16 (shapeCast S128x1x16 A c2) b2))
              0xFF800000#32 r1 (.inl rfl) rfl) c1)
            0xFF800000#32 r2 (.inl rfl) rfl) c3)
          (broadcast S128x1x1 (Scalar.ofBits (F := Ideal) .f32 0x322BCC77#32))) b3) (ix3 p n m)
      = Ideal.div (f n * f m)
          (((Finset.univ : Finset (Fin 16)).fold max ⊥ fun k => (Finset.univ : Finset (Fin 16)).fold max ⊥ fun l => f k * f l) + eps8) := by
  have hP : ∀ k l : Fin 16, mulf (broadcastTo S128x16x16 (shapeCast S128x16x1 A c1) b1)
      (broadcastTo S128x16x16 (shapeCast S128x1x16 A c2) b2) (ix3 p k l) = f k * f l := fun k l => by
    rw [outer_apply A c1 c2 b1 b2 p k l, hA k, hA l]
  refine (divf_apply _ _ _).trans ?_
  refine congrArg₂ Ideal.div (hP n m) ?_
  refine (broadcastTo_a11_abc_apply _ b3 p n m).trans ?_
  refine (addf_apply _ _ _).trans ?_
  refine congrArg₂ (fun x y : EReal => x + y) ?_ rfl
  exact max2_apply _ (fun k l => f k * f l) p hP r1 c1 r2 c3 _ _ _ _ (0 : Fin 1) (0 : Fin 1)

/-! ## The row maximum and the difference -/

/-- An array less its maximum along the last axis: entry (p, n, m), for an array that reads g along row (p, n). -/
theorem tail_apply (X : FVec Ideal S128x16x16 .f32) (p : Fin 128) (n m : Fin 16) (g : Fin 16 → EReal)
    (hX : ∀ k, X (ix3 p n k) = g k)
    (r : S128x16x16.Reduces [2] S128x16) (c : S128x16.ShapeCasts S128x16x1) (b : S128x16x1.Broadcasts S128x16x16) :
    subf X (broadcastTo S128x16x16 (shapeCast S128x16x1 (multiReduction .maximumf [2] S128x16 X 0xFF800000#32 r (.inl rfl) rfl) c) b)
        (ix3 p n m)
      = g m - (Finset.univ : Finset (Fin 16)).fold max ⊥ g := by
  refine (subf_apply _ _ _).trans ?_
  refine congrArg₂ (fun x y : EReal => x - y) (hX m) ?_
  refine (broadcastTo_ab1_abc_apply _ b p n m).trans ?_
  refine (shapeCast_ab_ab1_apply _ c p n (0 : Fin 1)).trans ?_
  refine (laneMax3_apply X _ r _ _ p n).trans ?_
  rw [ofBits_negInf]
  exact fold_max_congr ⊥ hX

/-! ## The exponential's argument -/

/-- The masked entry less its row's maximum, as the specification spells it on 16 rows and 16 key columns. -/
theorem pay25_apply (cols : Fin 16 → FVec Ideal S128x16 .f32) (v103 : Vec Ideal S128x14 .f32) (v120 : Vec Ideal S14x14 .f32)
    (p : Fin 128) (n m : Fin 16) :
    k0_pay25 (F := Ideal) (cols 6) (cols 7) (cols 8) (cols 9) (cols 10) (cols 11) (cols 12) (cols 13) (cols 14) (cols 15)
        (shapeCast S128x16x1 (cols 0) shapeCasts_S128x16_S128x16x1) (shapeCast S128x16x1 (cols 1) shapeCasts_S128x16_S128x16x1)
        (shapeCast S128x16x1 (cols 2) shapeCasts_S128x16_S128x16x1) (shapeCast S128x16x1 (cols 3) shapeCasts_S128x16_S128x16x1)
        (shapeCast S128x16x1 (cols 4) shapeCasts_S128x16_S128x16x1) (shapeCast S128x16x1 (cols 5) shapeCasts_S128x16_S128x16x1)
        v103 v120 (ix3 p n m)
      = Cert.Spec.zT (fun k => v103 (ix2 p k)) (fun k l => v120 (ix2 k l)) (fun k l => cols l (ix2 p k)) n m := by
  unfold k0_pay25
  refine (tail_apply _ p n m
    (mskT (fun k => v103 (ix2 p k)) (fun k l => v120 (ix2 k l)) (fun k l => cols l (ix2 p k)) n) (fun k => ?_) _ _ _).trans rfl
  refine (mask_apply _ _ p n k).trans ?_
  show (if k.val < 14 then _ else (⊥ : EReal))
    = if k.val < 14 then adjT (fun k => v103 (ix2 p k)) (fun k l => v120 (ix2 k l)) (fun k l => cols l (ix2 p k)) n k else ⊥
  refine congrArg (fun y : EReal => if k.val < 14 then y else ⊥) ?_
  refine (mulf_apply _ _ _).trans ?_
  refine congrArg₂ (fun x y : EReal => x * y) ?_ (cwPad_apply v120 _ _ _ _ _ p n k)
  refine (mulf_apply _ _ _).trans ?_
  refine congrArg₂ (fun x y : EReal => x * y) (cols_apply cols _ _ p n k) ?_
  exact aw_apply _ _ p (fun k' => padA_apply v103 _ p k') n k _ _ _ _ _ _ _ _

end Cert.KernelIdeal.Hand

end
-- ==== Proof.KBlock.lean ====
/-
  One grid point's block of the result: at (p, n, m) it is entry p's matrix `soft` at (n, m).

  The body's store is the softmax part applied to the mask part applied to the sixteen similarity columns of the normalised
  rows; reading each part at an index gives `softK` of the entry's rows, which is `soft` by the algebra.
-/
import proofs.«424087_j15942918603390_3_alg».proof.Proof.Gen.KernelIdeal.Frame
import proofs.«424087_j15942918603390_3_alg».proof.Proof.Spec
import proofs.«424087_j15942918603390_3_alg».proof.Proof.Algebra
import proofs.«424087_j15942918603390_3_alg».proof.Proof.KHead
import proofs.«424087_j15942918603390_3_alg».proof.Proof.KCols
import proofs.«424087_j15942918603390_3_alg».proof.Proof.KTail
import Idealize.ShloMosaic.Lib.Pipeline.Value
import Idealize.ShloMosaic.Lib.ValueIdx

noncomputable section

namespace Cert.KernelIdeal.Hand

open Cert.KernelIdeal Cert.KernelIdeal.Gen Cert.Spec Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The block the body leaves, as the parts applied in turn to the sixteen columns of the normalised rows. -/
theorem out_eq (x0 : Vec Ideal S128x14x768 .f32) (x1 : Vec Ideal S128x14 .f32) (x2 : Vec Ideal S14x14 .f32) (x3 : Vec Ideal S768x768 .bf16) (x4 : Vec Ideal S1x768 .f32) :
    out0_5 (F := Ideal) x0 x1 x2 x3 x4
      = k0_pay1 (k0_pay25 (cols (k0_pay2 x0 x3 x4) 6) (cols (k0_pay2 x0 x3 x4) 7) (cols (k0_pay2 x0 x3 x4) 8) (cols (k0_pay2 x0 x3 x4) 9)
          (cols (k0_pay2 x0 x3 x4) 10) (cols (k0_pay2 x0 x3 x4) 11) (cols (k0_pay2 x0 x3 x4) 12) (cols (k0_pay2 x0 x3 x4) 13)
          (cols (k0_pay2 x0 x3 x4) 14) (cols (k0_pay2 x0 x3 x4) 15)
          (shapeCast S128x16x1 (cols (k0_pay2 x0 x3 x4) 0) shapeCasts_S128x16_S128x16x1) (shapeCast S128x16x1 (cols (k0_pay2 x0 x3 x4) 1) shapeCasts_S128x16_S128x16x1)
          (shapeCast S128x16x1 (cols (k0_pay2 x0 x3 x4) 2) shapeCasts_S128x16_S128x16x1) (shapeCast S128x16x1 (cols (k0_pay2 x0 x3 x4) 3) shapeCasts_S128x16_S128x16x1)
          (shapeCast S128x16x1 (cols (k0_pay2 x0 x3 x4) 4) shapeCasts_S128x16_S128x16x1) (shapeCast S128x16x1 (cols (k0_pay2 x0 x3 x4) 5) shapeCasts_S128x16_S128x16x1)
          x1 x2) := by
  unfold out0_5
  rw [View.canon_unit_zero hz3]
  simp only [View.ld_unit_zero (S := S128x14x768) hz3, View.ld_unit_zero (S := S768x768) hz2, View.ld_unit_zero (S := S1x768) hz2,
    View.ld_unit_zero (S := S128x14) hz2, View.ld_unit_zero (S := S14x14) hz2]
  rw [pay9_eq, pay10_eq, pay11_eq, pay12_eq, pay13_eq, pay14_eq, pay15_eq, pay16_eq, pay17_eq, pay18_eq,
    pay19_eq, pay20_eq, pay21_eq, pay22_eq, pay23_eq, pay24_eq]

/-- The similarity columns of the normalised rows, at (k, l) of entry p: `sim16` of the entry's rows. -/
theorem cols_pay2_at (x0 : Vec Ideal S128x14x768 .f32) (x3 : Vec Ideal S768x768 .bf16) (x4 : Vec Ideal S1x768 .f32) (p : Fin 128) (k l : Fin 16) :
    cols (k0_pay2 (F := Ideal) x0 x3 x4) l (ix2 p k)
      = sim16 (fun k d => x0 (ix3 p k d)) (fun d e => x3 (ix2 d e)) (fun e => x4 (ix2 (0 : Fin 1) e)) k l := by
  rw [cols_at]
  unfold sim16
  refine Finset.sum_congr rfl fun e _ => ?_
  rw [pay2_apply, pay2_apply]

/-- THE BLOCK at (p, n, m). -/
theorem out_at (x0 : Vec Ideal S128x14x768 .f32) (x1 : Vec Ideal S128x14 .f32) (x2 : Vec Ideal S14x14 .f32) (x3 : Vec Ideal S768x768 .bf16) (x4 : Vec Ideal S1x768 .f32)
    (p : Fin 128) (n m : Fin 14) :
    out0_5 (F := Ideal) x0 x1 x2 x3 x4 (ix3 p n m)
      = soft (fun k d => x0 (ix3 p k d)) (fun d e => x3 (ix2 d e)) (fun e => x4 (ix2 (0 : Fin 1) e)) (fun k => x1 (ix2 p k)) (fun k l => x2 (ix2 k l)) n m := by
  rw [out_eq, ← softK_eq_soft]
  refine (pay1_apply _ p n m).trans ?_
  simp only [pay25_apply (cols (k0_pay2 x0 x3 x4)) x1 x2 p]
  unfold softK softT
  have hs : (fun k l => cols (k0_pay2 (F := Ideal) x0 x3 x4) l (ix2 p k))
      = sim16 (fun k d => x0 (ix3 p k d)) (fun d e => x3 (ix2 d e)) (fun e => x4 (ix2 (0 : Fin 1) e)) :=
    funext fun k => funext fun l => cols_pay2_at x0 x3 x4 p k l
  rw [hs]

end Cert.KernelIdeal.Hand

end
-- ==== Proof.Final.lean ====
/-
  From blocks to the array: the kernel's run ends with its result array at `G` of the five arguments.
-/
import proofs.«424087_j15942918603390_3_alg».proof.Proof.Gen.KernelIdeal.Value
import proofs.«424087_j15942918603390_3_alg».proof.Proof.Spec
import proofs.«424087_j15942918603390_3_alg».proof.Proof.KBlock
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Hand

open Cert.KernelIdeal Cert.KernelIdeal.Gen Cert.Spec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## What the host computes before the region -/

theorem V_cw (c : Dev nD) : (V m c main_v3 : S14x14.Idx → EReal)
    = Host.divf (m ((c : Thread nD τ).loc main_arg2)) (broadcastInDim S14x14 ![] bcast_S_S14x14
        (addf (Host.reduceAdd (m ((c : Thread nD τ).loc main_arg2)) (constant (F := Ideal) S_ .f32 0x00000000#32) reducesTo_S14x14_S_d0_1 h_S_) (constant (F := Ideal) S_ .f32 0x322BCC77#32))) := by
  dsimp only [Gen.V, Gen.hostOps0]; after_results; all_goals rfl

theorem V_bias (c : Dev nD) : (V m c main_v4 : S1x768.Idx → EReal)
    = shapeCast S1x768 (m ((c : Thread nD τ).loc main_arg4)) shapeCasts_S768_S1x768 := by
  dsimp only [Gen.V, Gen.hostOps0]; after_results; all_goals rfl

theorem V_W (c : Dev nD) : (V m c main_v5 : S768x768.Idx → EReal)
    = (m ((c : Thread nD τ).loc main_arg3) : S768x768.Idx → EReal) := by
  dsimp only [Gen.V, Gen.hostOps0]; after_results; all_goals rfl

/-! ## The windows' blocks, named at their literal types -/

/-- Point t's block of the region rows: 128 batch entries. -/
abbrev xblk (c : Dev nD) (t : Fin cfg0.N) : Vec Ideal S128x14x768 .f32 := iblk m c 0 t
/-- its block of the areas, -/
abbrev ablk (c : Dev nD) (t : Fin cfg0.N) : Vec Ideal S128x14 .f32 := iblk m c 1 t
/-- and the three arrays every point reads whole: the weights, W and the bias row. -/
abbrev cwblk (c : Dev nD) (t : Fin cfg0.N) : Vec Ideal S14x14 .f32 := iblk m c 2 t
abbrev wblk (c : Dev nD) (t : Fin cfg0.N) : Vec Ideal S768x768 .bf16 := iblk m c 3 t
abbrev bblk (c : Dev nD) (t : Fin cfg0.N) : Vec Ideal S1x768 .f32 := iblk m c 4 t

/-- The printed index maps, decided over the 64 grid points: point t takes block t of the batch axis and block 0 of every other. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

theorem xblk_at (c : Dev nD) (t : Fin cfg0.N) (p : Fin 128) (k : Fin 14) (d : Fin 768) (b : Fin 8192) (hb : b.val = t.val * 128 + p.val) :
    xblk m c t (ix3 p k d) = m ((c : Thread nD τ).loc main_arg0) (ix3 b k d) := by
  obtain ⟨e0, e1, e2, -⟩ := idx_facts t
  show V m c main_arg0 (((cfg0.win 0).blk t).view.emb (ix3 p k d)) = _
  rw [V_main_arg0]
  refine congrArg _ (funext fun a => Fin.ext ?_)
  match a with
  | ⟨0, _⟩ => show win0_0.index t (0 : Fin 3) * 128 + 1 * p.val = b.val; omega
  | ⟨1, _⟩ => show win0_0.index t (1 : Fin 3) * 14 + 1 * k.val = k.val; omega
  | ⟨2, _⟩ => show win0_0.index t (2 : Fin 3) * 768 + 1 * d.val = d.val; omega

theorem ablk_at (c : Dev nD) (t : Fin cfg0.N) (p : Fin 128) (k : Fin 14) (b : Fin 8192) (hb : b.val = t.val * 128 + p.val) :
    ablk m c t (ix2 p k) = m ((c : Thread nD τ).loc main_arg1) (ix2 b k) := by
  obtain ⟨-, -, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 128 + 1 * p.val = b.val; omega
  | ⟨1, _⟩ => show win0_1.index t (1 : Fin 2) * 14 + 1 * k.val = k.val; omega

theorem cwblk_at (c : Dev nD) (t : Fin cfg0.N) (k l : Fin 14) : cwblk m c t (ix2 k l) = V m c main_v3 (ix2 k l) := by
  obtain ⟨-, -, -, -, -, e0, e1, -⟩ := idx_facts t
  show V m c main_v3 (((cfg0.win 2).blk t).view.emb (ix2 k l)) = _
  refine congrArg _ (funext fun a => Fin.ext ?_)
  match a with
  | ⟨0, _⟩ => show win0_2.index t (0 : Fin 2) * 14 + 1 * k.val = k.val; omega
  | ⟨1, _⟩ => show win0_2.index t (1 : Fin 2) * 14 + 1 * l.val = l.val; omega

theorem wblk_at (c : Dev nD) (t : Fin cfg0.N) (d e : Fin 768) : wblk m c t (ix2 d e) = V m c main_v5 (ix2 d e) := by
  obtain ⟨-, -, -, -, -, -, -, e0, e1, -⟩ := idx_facts t
  show V m c main_v5 (((cfg0.win 3).blk t).view.emb (ix2 d e)) = _
  refine congrArg _ (funext fun a => Fin.ext ?_)
  match a with
  | ⟨0, _⟩ => show win0_3.index t (0 : Fin 2) * 768 + 1 * d.val = d.val; omega
  | ⟨1, _⟩ => show win0_3.index t (1 : Fin 2) * 768 + 1 * e.val = e.val; omega

theorem bblk_at (c : Dev nD) (t : Fin cfg0.N) (e : Fin 768) : bblk m c t (ix2 (0 : Fin 1) e) = V m c main_v4 (ix2 (0 : Fin 1) e) := by
  obtain ⟨-, -, -, -, -, -, -, -, -, e0, e1, -⟩ := idx_facts t
  show V m c main_v4 (((cfg0.win 4).blk t).view.emb (ix2 (0 : Fin 1) e)) = _
  refine congrArg _ (funext fun a => Fin.ext ?_)
  match a with
  | ⟨0, _⟩ => show win0_4.index t (0 : Fin 2) * 1 + 1 * 0 = 0; omega
  | ⟨1, _⟩ => show win0_4.index t (1 : Fin 2) * 768 + 1 * e.val = e.val; omega

/-! ## The weights and the bias row as the host leaves them, read at an index -/

/-- The counts over their total plus ε₈, at (k, l). -/
theorem cw_at (co : FVec Ideal S14x14 .f32) (k l : Fin 14) :
    Host.divf co (broadcastInDim S14x14 ![] bcast_S_S14x14 (addf (Host.reduceAdd co (constant (F := Ideal) S_ .f32 0x00000000#32) reducesTo_S14x14_S_d0_1 h_S_) (constant (F := Ideal) S_ .f32 0x322BCC77#32))) (ix2 k l)
      = cwOf co k l := by
  unfold cwOf
  have hb : broadcastInDim S14x14 ![] bcast_S_S14x14 (addf (Host.reduceAdd co (constant (F := Ideal) S_ .f32 0x00000000#32) reducesTo_S14x14_S_d0_1 h_S_) (constant (F := Ideal) S_ .f32 0x322BCC77#32)) (ix2 k l)
      = (∑ i : S14x14.Idx, co i) + eps8 := by
    refine (broadcastInDim_apply _ bcast_S_S14x14 _ (ix2 k l) ix0 (fun a => a.elim0)).trans ?_
    show Host.reduceAdd co (constant (F := Ideal) S_ .f32 0x00000000#32) reducesTo_S14x14_S_d0_1 h_S_ ix0 + eps8 = _
    refine congrArg (· + eps8) ?_
    simp only [Host.reduceAdd, Ideal.hostReduceAdd_def]
    refine (Ideal.hostReduceAdd_total reducesTo_S14x14_S_d0_1 (fun b => b.elim0) co _ ix0).trans ?_
    show Ideal.ofBits .f32 0x00000000#32 + _ = _
    rw [Ideal.ofBits_zero_f32, zero_add]
  exact congrArg (Ideal.div (co (ix2 k l))) hb

/-- The bias as a one-row matrix, at (0, e). -/
theorem biasRow_at {α : Type} (x : S768.Idx → α) (e : Fin 768) :
    shapeCast S1x768 x shapeCasts_S768_S1x768 (ix2 (0 : Fin 1) e) = x (ix1 e) :=
  shapeCast_apply x _ _ _ (by
    rw [Shape.rowMajor_val_two, Shape.rowMajor_val_one]
    show e.val = 0 * 768 + e.val
    omega)

/-! ## What a point writes back -/

/-- The result array: `G` of the five arguments as launched. -/
abbrev GK (c : Dev nD) : S8192x14x14.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4))

/-- Entry p of point t's block is batch entry 128 t + p. -/
def bat (t : Fin cfg0.N) (p : Fin 128) : Fin 8192 :=
  ⟨t.val * 128 + p.val, by have := lt_of_lt_of_eq t.isLt N_0; have := p.isLt; omega⟩

/-- Point t's block of the result at (p, n, k) is the result array at (128 t + p, n, k). -/
theorem block_at (c : Dev nD) (t : Fin cfg0.N) (p : Fin 128) (n k : Fin 14) :
    out0_5 (F := Ideal) (xblk m c t) (ablk m c t) (cwblk m c t) (wblk m c t) (bblk m c t) (ix3 p n k) = GK m c (ix3 (bat t p) n k) := by
  rw [out_at]
  have h1 : (fun k d => xblk m c t (ix3 p k d)) = fun k d => m ((c : Thread nD τ).loc main_arg0) (ix3 (bat t p) k d) :=
    funext fun k => funext fun d => xblk_at m c t p k d (bat t p) rfl
  have h2 : (fun d e => wblk m c t (ix2 d e)) = fun d e => m ((c : Thread nD τ).loc main_arg3) (ix2 d e) :=
    funext fun d => funext fun e => by rw [wblk_at, V_W]
  have h3 : (fun e => bblk m c t (ix2 (0 : Fin 1) e)) = fun e => m ((c : Thread nD τ).loc main_arg4) (ix1 e) :=
    funext fun e => by rw [bblk_at, V_bias]; exact biasRow_at _ e
  have h4 : (fun k => ablk m c t (ix2 p k)) = fun k => m ((c : Thread nD τ).loc main_arg1) (ix2 (bat t p) k) :=
    funext fun k => ablk_at m c t p k (bat t p) rfl
  have h5 : (fun k l => cwblk m c t (ix2 k l)) = cwOf (m ((c : Thread nD τ).loc main_arg2)) :=
    funext fun k => funext fun l => by rw [cwblk_at, V_cw]; exact cw_at _ k l
  rw [h1, h2, h3, h4, h5]
  rfl

theorem flushed_eq (c : Dev nD) (t : Fin cfg0.N) :
    (dats m 0 c).flushed 5 t = ((cfg0.win 5).blk t).view.read (Elt Ideal) (GK m c) := by
  rw [Cert.KernelIdeal.Value.flushed5]
  obtain ⟨-, -, -, -, -, -, -, -, -, -, -, e0, e1, e2⟩ := idx_facts t
  funext y
  show out0_5 (F := Ideal) (xblk m c t) (ablk m c t) (cwblk m c t) (wblk m c t) (bblk m c t) y = GK m c (((cfg0.win 5).blk t).view.emb y)
  have hemb : ((cfg0.win 5).blk t).view.emb y = ix3 (bat t (y 0)) (y 1) (y 2) := funext fun a => Fin.ext (by
    match a with
    | ⟨0, _⟩ => show win0_5.index t (0 : Fin 3) * 128 + 1 * (y 0).val = t.val * 128 + (y 0).val; omega
    | ⟨1, _⟩ => show win0_5.index t (1 : Fin 3) * 14 + 1 * (y 1).val = (y 1).val; omega
    | ⟨2, _⟩ => show win0_5.index t (2 : Fin 3) * 14 + 1 * (y 2).val = (y 2).val; omega)
  exact ((congrArg (out0_5 (F := Ideal) (xblk m c t) (ablk m c t) (cwblk m c t) (wblk m c t) (bblk m c t)) (eq_ix3 y)).trans
    (block_at m c t (y 0) (y 1) (y 2))).trans (congrArg (GK m c) hemb.symm)

/-! ## The cover, the array, the run -/

/-- An index of the array is in point t's block iff each coordinate is in the block's range on its axis. -/
theorem mem_blk5 (t : Fin cfg0.N) (i : S8192x14x14.Idx) :
    i ∈ ((cfg0.win 5).blk t).view.set ↔ ∀ a : Fin 3, win0_5.index t a * S128x14x14.size a ≤ (i a).val ∧ (i a).val < win0_5.index t a * S128x14x14.size a + S128x14x14.size a := by
  show i ∈ ((View.whole main_v6).slice (win0_5.rect t)).set ↔ _
  rw [View.set_slice_whole, Rect.mem_set_unit]
  exact Iff.rfl

/-- Batch entry b lies in the block of point b / 128: the 64 blocks fill the array. -/
theorem cover5 (i : S8192x14x14.Idx) : ∃ t : Fin cfg0.N, (cfg0.win 5).flush t = true ∧ i ∈ ((cfg0.win 5).blk t).view.set := by
  have h0 : (i 0).val < 8192 := (i 0).isLt
  have h1 : (i 1).val < 14 := (i 1).isLt
  have h2 : (i 2).val < 14 := (i 2).isLt
  have ht : (i 0).val / 128 < cfg0.N := by rw [show cfg0.N = 64 from N_0]; omega
  refine ⟨⟨(i 0).val / 128, ht⟩, flush0_5 _, (mem_blk5 _ i).mpr fun a => ?_⟩
  obtain ⟨-, -, -, -, -, -, -, -, -, -, -, e0, e1, e2⟩ := idx_facts ⟨(i 0).val / 128, ht⟩
  have e0' : win0_5.index ⟨(i 0).val / 128, ht⟩ (0 : Fin 3) = (i 0).val / 128 := e0
  match a with
  | ⟨0, _⟩ => show win0_5.index ⟨(i 0).val / 128, ht⟩ (0 : Fin 3) * 128 ≤ (i 0).val ∧ (i 0).val < win0_5.index ⟨(i 0).val / 128, ht⟩ (0 : Fin 3) * 128 + 128; omega
  | ⟨1, _⟩ => show win0_5.index ⟨(i 0).val / 128, ht⟩ (1 : Fin 3) * 14 ≤ (i 1).val ∧ (i 1).val < win0_5.index ⟨(i 0).val / 128, ht⟩ (1 : Fin 3) * 14 + 14; omega
  | ⟨2, _⟩ => show win0_5.index ⟨(i 0).val / 128, ht⟩ (2 : Fin 3) * 14 ≤ (i 2).val ∧ (i 2).val < win0_5.index ⟨(i 0).val / 128, ht⟩ (2 : Fin 3) * 14 + 14; omega

/-- THE ARRAY after the run. -/
theorem final5 (c : Dev nD) : (dats m 0 c).arrAt 5 cfg0.N = GK m c :=
  (dats m 0 c).arrAt_eq_of_cover 5 (GK m c) (fun t _ => flushed_eq m c t) cover5

/-- The kernel's run: its result array ends at `G` of the arguments, the arguments unchanged. -/
theorem run : θ_run defs (onTc (τ := τ) (main (F := Ideal))) ⟨m, fun _ => 0, ρ⟩ fun r => ∀ c : Dev nD,
      r.2.mem ((c : Thread nD τ).loc main_v6) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (Cert.KernelIdeal.Value.run_blocks m ρ)

end Cert.KernelIdeal.Hand

end
-- ==== Proof.RefValue.lean ====
/-
  The reference program's result, read index by index, is `Spec.G` of its five arguments.

  Each named quantity of the specification (feat, ssq, nf, sim, the area products and their maximum, aw, the normalised
  co-occurrence weights, adj, the row maximum, soft) is matched with the stage of the reference program that computes it,
  at an index built from its coordinates. The two maxima are folds of `max` from −∞ over the set of source indices that
  drop to the result index; each is identified with the specification's fold by the universal property of a maximum.
-/
import proofs.«424087_j15942918603390_3_alg».proof.Proof.Gen.ReferenceIdeal.Read
import proofs.«424087_j15942918603390_3_alg».proof.Proof.Spec
import Idealize.ShloMosaic.Lib.ValueIdx
import Idealize.ShloMosaic.PureOps.Ideal.Laws
import Idealize.ShloMosaic.PureOps.Reduce
import Mathlib.Data.Finset.Fold

noncomputable section

namespace Cert.ReferenceIdeal.RefValue

open Cert.ReferenceIdeal Cert.ReferenceIdeal.Gen Cert.ReferenceIdeal.Read
open Idealize.ShloMosaic Idealize.ShloMosaic.ValueIdx

variable (x0 : (⟨S8192x14x768, .f32⟩ : BufTy).Contents (Elt Ideal)) (x1 : (⟨S8192x14, .f32⟩ : BufTy).Contents (Elt Ideal))
  (x2 : (⟨S14x14, .f32⟩ : BufTy).Contents (Elt Ideal)) (x3 : (⟨S768x768, .f32⟩ : BufTy).Contents (Elt Ideal))
  (x4 : (⟨S768, .f32⟩ : BufTy).Contents (Elt Ideal))

/-- Batch entry `b`'s 14 region rows. -/
abbrev rows (b : Fin 8192) : Fin 14 → Fin 768 → EReal := fun n d => x0 (ix3 b n d)
/-- The projection matrix by its two coordinates. -/
abbrev proj : Fin 768 → Fin 768 → EReal := fun d e => x3 (ix2 d e)
/-- The bias by its coordinate. -/
abbrev bias : Fin 768 → EReal := fun e => x4 (ix1 e)
/-- Batch entry `b`'s 14 areas. -/
abbrev areas (b : Fin 8192) : Fin 14 → EReal := fun n => x1 (ix2 b n)

/-- The f32 word of −∞ is ⊥. -/
theorem ofBits_neg_inf : Ideal.ofBits .f32 0xFF800000#32 = (⊥ : EReal) := by simp [Ideal.ofBits, Ideal.ieee]

/-! ### The projected row -/

theorem feat_eq (b : Fin 8192) (n : Fin 14) (e : Fin 768) :
    val_main_v3 (F := Ideal) x0 x3 x4 (ix3 b n e) = Spec.feat (rows x0 b) (proj x3) (bias x4) n e := by
  have hl : ∀ k : Fin 768, lidx_main_v0 (ix3 b n e) k = ix3 b n k := fun k =>
    funext fun a => Fin.ext (by match a with | ⟨0, _⟩ => rfl | ⟨1, _⟩ => rfl | ⟨2, _⟩ => rfl)
  have hr : ∀ k : Fin 768, ridx_main_v0 (ix3 b n e) k = ix2 k e := fun k =>
    funext fun a => Fin.ext (by match a with | ⟨0, _⟩ => rfl | ⟨1, _⟩ => rfl)
  have hb : idx_main_v1 (idx_main_v2 (ix3 b n e)) = ix1 e :=
    funext fun a => Fin.ext (by match a with | ⟨0, _⟩ => rfl)
  rw [val_main_v3_apply, val_main_v0_apply, val_main_v2_apply, val_main_v1_apply, hb]
  simp only [hl, hr, Ideal.addf_def]
  rfl

/-! ### The squared length of a projected row, the unit row, the similarity -/

theorem ssq_eq (b : Fin 8192) (n : Fin 14) :
    val_main_call0_v1 (F := Ideal) x0 x3 x4 (ix2 b n) = Spec.ssq (rows x0 b) (proj x3) (bias x4) n := by
  have hi : ∀ k : Fin 768, idx_main_call0_v1 (ix2 b n) k = ix3 b n k := fun k =>
    funext fun a => Fin.ext (by match a with | ⟨0, _⟩ => rfl | ⟨1, _⟩ => rfl | ⟨2, _⟩ => rfl)
  rw [val_main_call0_v1_apply, val_main_call0_cst_apply]
  simp only [val_main_call0_v0_apply, hi, feat_eq, Ideal.ofBits_def, Ideal.ofBits_zero_f32, zero_add, Ideal.mulf_def]
  rfl

theorem nf_eq (b : Fin 8192) (n : Fin 14) (e : Fin 768) :
    val_main_v8 (F := Ideal) x0 x3 x4 (ix3 b n e) = Spec.nf (rows x0 b) (proj x3) (bias x4) n e := by
  have hi : idx_main_call0_v2 (idx_main_v7 (ix3 b n e)) = ix2 b n :=
    funext fun a => Fin.ext (by match a with | ⟨0, _⟩ => rfl | ⟨1, _⟩ => rfl)
  rw [val_main_v8_apply, val_main_v7_apply, val_main_v6_apply, val_main_v4_apply, val_main_call0_v2_apply,
    val_main_v5_apply, val_main_cst_apply, hi, ssq_eq, feat_eq]
  rfl

theorem sim_eq (b : Fin 8192) (n m : Fin 14) :
    val_main_v9 (F := Ideal) x0 x3 x4 (ix3 b n m) = Spec.sim (rows x0 b) (proj x3) (bias x4) n m := by
  have hl : ∀ k : Fin 768, lidx_main_v9 (ix3 b n m) k = ix3 b n k := fun k =>
    funext fun a => Fin.ext (by match a with | ⟨0, _⟩ => rfl | ⟨1, _⟩ => rfl | ⟨2, _⟩ => rfl)
  have hr : ∀ k : Fin 768, ridx_main_v9 (ix3 b n m) k = ix3 b m k := fun k =>
    funext fun a => Fin.ext (by match a with | ⟨0, _⟩ => rfl | ⟨1, _⟩ => rfl | ⟨2, _⟩ => rfl)
  rw [val_main_v9_apply]
  simp only [hl, hr, nf_eq]
  rfl

/-! ### The area products, their maximum, the area weights -/

theorem prod_eq (b : Fin 8192) (n m : Fin 14) :
    val_main_v14 (F := Ideal) x1 (ix3 b n m) = areas x1 b n * areas x1 b m := by
  have h1 : idx_main_v10 (idx_main_v12 (ix3 b n m)) = ix2 b n :=
    funext fun a => Fin.ext (by match a with | ⟨0, _⟩ => rfl | ⟨1, _⟩ => rfl)
  have h2 : idx_main_v11 (idx_main_v13 (ix3 b n m)) = ix2 b m :=
    funext fun a => Fin.ext (by match a with | ⟨0, _⟩ => rfl | ⟨1, _⟩ => rfl)
  rw [val_main_v14_apply, val_main_v12_apply, val_main_v10_apply, val_main_v13_apply, val_main_v11_apply, h1, h2]
  rfl

/-- The source indices of the maximum over both region axes that drop to batch entry `b` are those whose first
    coordinate is `b`. -/
theorem drop12_eq (i : S8192x14x14.Idx) (b : Fin 8192) :
    reducesTo_S8192x14x14_S8192_d1_2.drop i = ix1 b ↔ i 0 = b := by
  constructor
  · intro h
    have h0 := congrArg (fun j : S8192.Idx => (j 0).val) h
    exact Fin.ext ((Shape.ReducesTo.drop_apply_val_of_eq reducesTo_S8192x14x14_S8192_d1_2 i 0 0).symm.trans h0)
  · intro h
    funext a
    match a with
    | ⟨0, _⟩ => exact Fin.ext ((Shape.ReducesTo.drop_apply_val_of_eq reducesTo_S8192x14x14_S8192_d1_2 i 0 0).trans (congrArg Fin.val h))

theorem amax_eq (b : Fin 8192) :
    val_main_v15 (F := Ideal) x1 (ix1 b) = Spec.amax (areas x1 b) := by
  unfold val_main_v15
  rw [Host.reduce_eq_fold, val_main_cst_0_apply]
  show Finset.fold max (Ideal.ofBits .f32 0xFF800000#32) (val_main_v14 (F := Ideal) x1) _ = _
  rw [ofBits_neg_inf]
  unfold Spec.amax
  apply le_antisymm
  · rw [Finset.fold_max_le]
    refine ⟨bot_le, fun i hi => ?_⟩
    have h0 : i 0 = b := (drop12_eq i b).1 (Finset.mem_filter.1 hi).2
    obtain ⟨b', n, m, rfl⟩ : ∃ (b' : Fin 8192) (n m : Fin 14), i = ix3 b' n m := ⟨i 0, i 1, i 2, eq_ix3 i⟩
    have hb : b' = b := h0
    subst hb
    rw [prod_eq, Finset.le_fold_max]
    refine Or.inr ⟨n, Finset.mem_univ _, ?_⟩
    rw [Finset.le_fold_max]
    exact Or.inr ⟨m, Finset.mem_univ _, le_rfl⟩
  · rw [Finset.fold_max_le]
    refine ⟨bot_le, fun n _ => ?_⟩
    rw [Finset.fold_max_le]
    refine ⟨bot_le, fun m _ => ?_⟩
    rw [Finset.le_fold_max]
    refine Or.inr ⟨ix3 b n m, Finset.mem_filter.2 ⟨Finset.mem_univ _, (drop12_eq _ b).2 rfl⟩, ?_⟩
    rw [prod_eq]

theorem aw_eq (b : Fin 8192) (n m : Fin 14) :
    val_main_v20 (F := Ideal) x1 (ix3 b n m) = Spec.aw (areas x1 b) n m := by
  have hi : idx_main_v16 (idx_main_v19 (ix3 b n m)) = ix1 b :=
    funext fun a => Fin.ext (by match a with | ⟨0, _⟩ => rfl)
  rw [val_main_v20_apply, val_main_v19_apply, val_main_v18_apply, val_main_v16_apply, val_main_v17_apply,
    val_main_cst_1_apply, hi, amax_eq, prod_eq]
  rfl

/-! ### The co-occurrence weights over their total -/

theorem cw_eq (b : Fin 8192) (n m : Fin 14) :
    val_main_v27 (F := Ideal) x2 (ix3 b n m) = Spec.cwOf x2 n m := by
  have hi : idx_main_v26 (idx_main_v27 (ix3 b n m)) = ix2 n m :=
    funext fun a => Fin.ext (by match a with | ⟨0, _⟩ => rfl | ⟨1, _⟩ => rfl)
  rw [val_main_v27_apply, val_main_v26_apply, val_main_v24_apply, val_main_v23_apply, val_main_v22_apply,
    val_main_v21_apply, val_main_cst_2_apply, val_main_cst_3_apply, hi]
  simp only [Ideal.ofBits_def, Ideal.ofBits_zero_f32, zero_add, Ideal.addf_def, Ideal.hostDivf_def]
  rfl

/-! ### The adjacency, its row maximum, the softmax -/

theorem adj_eq (b : Fin 8192) (n m : Fin 14) :
    val_main_v28 (F := Ideal) x0 x1 x2 x3 x4 (ix3 b n m)
      = Spec.adj (rows x0 b) (proj x3) (bias x4) (areas x1 b) (Spec.cwOf x2) n m := by
  rw [val_main_v28_apply, val_main_v25_apply, sim_eq, aw_eq, cw_eq]
  rfl

/-- The source indices of the maximum over the last axis that drop to row `n` of batch entry `b` are those whose first two
    coordinates are `b` and `n`. -/
theorem drop2_eq (i : S8192x14x14.Idx) (b : Fin 8192) (n : Fin 14) :
    reducesTo_S8192x14x14_S8192x14_d2.drop i = ix2 b n ↔ i 0 = b ∧ i 1 = n := by
  constructor
  · intro h
    have h0 := congrArg (fun j : S8192x14.Idx => (j 0).val) h
    have h1 := congrArg (fun j : S8192x14.Idx => (j 1).val) h
    exact ⟨Fin.ext ((Shape.ReducesTo.drop_apply_val_of_eq reducesTo_S8192x14x14_S8192x14_d2 i 0 0).symm.trans h0),
      Fin.ext ((Shape.ReducesTo.drop_apply_val_of_eq reducesTo_S8192x14x14_S8192x14_d2 i 1 1).symm.trans h1)⟩
  · intro h
    funext a
    match a with
    | ⟨0, _⟩ => exact Fin.ext ((Shape.ReducesTo.drop_apply_val_of_eq reducesTo_S8192x14x14_S8192x14_d2 i 0 0).trans (congrArg Fin.val h.1))
    | ⟨1, _⟩ => exact Fin.ext ((Shape.ReducesTo.drop_apply_val_of_eq reducesTo_S8192x14x14_S8192x14_d2 i 1 1).trans (congrArg Fin.val h.2))

theorem rowmax_eq (b : Fin 8192) (n : Fin 14) :
    val_main_v31 (F := Ideal) x0 x1 x2 x3 x4 (ix2 b n)
      = Spec.rowmax (rows x0 b) (proj x3) (bias x4) (areas x1 b) (Spec.cwOf x2) n := by
  rw [val_main_v31_apply, val_main_v30_apply, val_main_cst_5_apply]
  unfold val_main_v29
  rw [Host.reduce_eq_fold, val_main_cst_4_apply]
  show max (Ideal.ofBits .f32 0xFF800000#32)
    (Finset.fold max (Ideal.ofBits .f32 0xFF800000#32) (val_main_v28 (F := Ideal) x0 x1 x2 x3 x4) _) = _
  rw [ofBits_neg_inf, max_bot_left]
  unfold Spec.rowmax
  apply le_antisymm
  · rw [Finset.fold_max_le]
    refine ⟨bot_le, fun i hi => ?_⟩
    obtain ⟨h0, h1⟩ := (drop2_eq i b n).1 (Finset.mem_filter.1 hi).2
    obtain ⟨b', n', m, rfl⟩ : ∃ (b' : Fin 8192) (n' m : Fin 14), i = ix3 b' n' m := ⟨i 0, i 1, i 2, eq_ix3 i⟩
    have hb : b' = b := h0
    have hn : n' = n := h1
    subst hb hn
    rw [adj_eq, Finset.le_fold_max]
    exact Or.inr ⟨m, Finset.mem_univ _, le_rfl⟩
  · rw [Finset.fold_max_le]
    refine ⟨bot_le, fun m _ => ?_⟩
    rw [Finset.le_fold_max]
    refine Or.inr ⟨ix3 b n m, Finset.mem_filter.2 ⟨Finset.mem_univ _, (drop2_eq _ b n).2 ⟨rfl, rfl⟩⟩, ?_⟩
    rw [adj_eq]

/-- The exponential of an adjacency entry less its row's maximum. -/
theorem exp_eq (b : Fin 8192) (n k : Fin 14) :
    val_main_v35 (F := Ideal) x0 x1 x2 x3 x4 (ix3 b n k)
      = Ideal.exp (Spec.adj (rows x0 b) (proj x3) (bias x4) (areas x1 b) (Spec.cwOf x2) n k
          - Spec.rowmax (rows x0 b) (proj x3) (bias x4) (areas x1 b) (Spec.cwOf x2) n) := by
  have hi : idx_main_v32 (idx_main_v33 (ix3 b n k)) = ix2 b n :=
    funext fun a => Fin.ext (by match a with | ⟨0, _⟩ => rfl | ⟨1, _⟩ => rfl)
  rw [val_main_v35_apply, val_main_v34_apply, val_main_v33_apply, val_main_v32_apply, hi, rowmax_eq, adj_eq]
  rfl

theorem soft_eq (b : Fin 8192) (n m : Fin 14) :
    val_main_v39 (F := Ideal) x0 x1 x2 x3 x4 (ix3 b n m)
      = Spec.soft (rows x0 b) (proj x3) (bias x4) (areas x1 b) (Spec.cwOf x2) n m := by
  have hi : idx_main_v37 (idx_main_v38 (ix3 b n m)) = ix2 b n :=
    funext fun a => Fin.ext (by match a with | ⟨0, _⟩ => rfl | ⟨1, _⟩ => rfl)
  have hk : ∀ k : Fin 14, idx_main_v36 (ix2 b n) k = ix3 b n k := fun k =>
    funext fun a => Fin.ext (by match a with | ⟨0, _⟩ => rfl | ⟨1, _⟩ => rfl | ⟨2, _⟩ => rfl)
  rw [val_main_v39_apply, val_main_v38_apply, val_main_v37_apply, hi, val_main_v36_apply, val_main_cst_6_apply]
  simp only [hk, exp_eq, Ideal.ofBits_def, Ideal.ofBits_zero_f32, zero_add, Ideal.hostDivf_def]
  rfl

/-- The reference program's result is `Spec.G` of its five arguments. -/
theorem result_eq (x0 : (⟨S8192x14x768, .f32⟩ : BufTy).Contents (Elt Ideal)) (x1 : (⟨S8192x14, .f32⟩ : BufTy).Contents (Elt Ideal)) (x2 : (⟨S14x14, .f32⟩ : BufTy).Contents (Elt Ideal)) (x3 : (⟨S768x768, .f32⟩ : BufTy).Contents (Elt Ideal)) (x4 : (⟨S768, .f32⟩ : BufTy).Contents (Elt Ideal)) :
    Cert.ReferenceIdeal.Read.val_main_v39 x0 x1 x2 x3 x4 = Cert.Spec.G x0 x1 x2 x3 x4 := by
  funext i
  obtain ⟨b, n, m, rfl⟩ : ∃ (b : Fin 8192) (n m : Fin 14), i = ix3 b n m := ⟨i 0, i 1, i 2, eq_ix3 i⟩
  rw [soft_eq]
  rfl

end Cert.ReferenceIdeal.RefValue

end
-- ==== Proof.lean ====
/-
  The kernel (one pallas_call over 64 blocks of 128 batch entries) and its jnp reference compute, for every batch entry, the
  row-wise softmax of  sim · aw · cw :  sim the cosine similarities of the entry's 14 projected rows (x · W + b, each row scaled
  to unit length), aw the outer product of the entry's 14 areas over its largest entry plus ε₈, cw the co-occurrence counts over
  their total plus ε₈. Over the extended reals the two programs end with the same array, for every input:

  * the kernel pads each entry from 14 to 16 rows and key columns (zero rows, zero areas, zero weights) and fills the two
    padded key columns with a constant that denotes −∞, so they add nothing to a row's maximum (−∞ is where a maximum starts)
    nor to its sum of exponentials (exp (−∞ − x) = 0);
  * it scales a row by the reciprocal square root of max (Σ feat², ε²) where the reference divides by max (√(Σ feat²), ε):
    one number, since the square root is monotone and √(ε²) = ε (ε the reference's f32 word for 1e-12, ε² its exact square,
    which is what the kernel's constant is named);
  * it takes the maximum of the area products over the last axis and then over the rows, the reference over both axes at once;
    the padded products are 0, and the largest product is at least a square, so never negative;
  * its matrix product, lane sums and quotients are the reference's at the ideal values.

  Spec.lean states the matrix, Algebra.lean proves the two spellings equal, KHead / KCols / KTail / KBlock read the kernel's block
  at an index, Final.lean lays the 64 blocks out as the array and reads the kernel's run, RefValue.lean reads the reference's
  result; here the five claims are assembled. No claim uses the finiteness of the inputs.
-/
import proofs.«424087_j15942918603390_3_alg».proof.Defs
import proofs.«424087_j15942918603390_3_alg».proof.Proof.Gen.Kernel
import proofs.«424087_j15942918603390_3_alg».proof.Proof.Gen.Kernel.Skeleton
import proofs.«424087_j15942918603390_3_alg».proof.Proof.Gen.Kernel.Launch
import proofs.«424087_j15942918603390_3_alg».proof.Proof.Gen.Kernel.Points
import proofs.«424087_j15942918603390_3_alg».proof.Proof.Gen.Kernel.Frame
import proofs.«424087_j15942918603390_3_alg».proof.Proof.Gen.KernelIdeal
import proofs.«424087_j15942918603390_3_alg».proof.Proof.Gen.KernelIdeal.Skeleton
import proofs.«424087_j15942918603390_3_alg».proof.Proof.Gen.KernelIdeal.Launch
import proofs.«424087_j15942918603390_3_alg».proof.Proof.Gen.KernelIdeal.Points
import proofs.«424087_j15942918603390_3_alg».proof.Proof.Gen.KernelIdeal.Frame
import proofs.«424087_j15942918603390_3_alg».proof.Proof.Gen.ReferenceIdeal
import proofs.«424087_j15942918603390_3_alg».proof.Proof.Gen.Pre_finite_inputs
import proofs.«424087_j15942918603390_3_alg».proof.Proof.Gen.KernelIdeal.Value
import proofs.«424087_j15942918603390_3_alg».proof.Proof.Gen.ReferenceIdeal.Run
import proofs.«424087_j15942918603390_3_alg».proof.Proof.Gen.ReferenceIdeal.Read
import proofs.«424087_j15942918603390_3_alg».proof.Proof.Final
import proofs.«424087_j15942918603390_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two named constants: the table gives the guard under the squared norm the value ε², and the fill of the padded key
    columns the value −∞. -/
theorem preserves : Cert.preserves_Kernel_KernelIdeal :=
  ⟨IdealRules.named_const.statement Cert.KernelIdeal.κ "eps_sq" .f32 0x179ABE15#32 _ rfl,
   IdealRules.named_const.statement Cert.KernelIdeal.κ "neg_big" .f32 0xFF333332#32 ⊥ rfl⟩

/-- Both runs end with the result array at `Spec.G` of the arguments, and the arguments agree. -/
theorem algebraic : Cert.algebraic_KernelIdeal_ReferenceIdeal := by
  intro m ρ m' ρ' _ hagree
  refine ⟨fun c => Cert.KernelIdeal.Hand.GK m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
